-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1x64 : Shape := ⟨3, ![100000, 1, 64]⟩
abbrev S1600000x1x64 : Shape := ⟨3, ![1600000, 1, 64]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x1x64 : S_.BroadcastsInDim S100000x1x64 (![] : Fin 0 → Fin S100000x1x64.rank)
  reducesTo_S100000x1x64_S_d0_1_2 : S100000x1x64.ReducesTo [0, 1, 2] S_
  h_S_ : 0 < S_.numel
  bcast_S_S1600000x1x64 : S_.BroadcastsInDim S1600000x1x64 (![] : Fin 0 → Fin S1600000x1x64.rank)
  reducesTo_S1600000x1x64_S_d0_1_2 : S1600000x1x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v33 : IVec S1600000 1) : IVec S_ 1 :=
  let main_c_12 : IVec S_ 1 := constantI S_ 1 1#1
  let main_v34 : IVec S_ 1 := (fun x v => Host.reduce IntOp.andi x v reducesTo_S1600000_S_d0 h_S_) main_v33 main_c_12
  let main_v35 : IVec S_ 1 := andi main_v28 main_v34
  main_v35

def fn_part1 {F : FTy → Type} [FloatOps F] (main_arg2 : IVec S1600000 32) (main_arg6 : FVec F S64x128 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S1600000 32 := broadcastInDim S1600000 ![] bcast_S_S1600000 main_c_10
  let main_v30 : IVec S1600000 1 := cmpi .sge main_arg2 main_v29
  let main_c_11 : IVec S_ 32 := constantI S_ 32 100000#32
  let main_v31 : IVec S1600000 32 := broadcastInDim S1600000 ![] bcast_S_S1600000 main_c_11
  let main_v32 : IVec S1600000 1 := cmpi .slt main_arg2 main_v31
  let main_v33 : IVec S1600000 1 := andi main_v30 main_v32
  fn_part2 (F := F) main_v28 main_v33

def fn {F : FTy → Type} [FloatOps F] (main_arg0 : FVec F S100000x1x64 .f32) (main_arg1 : FVec F S1600000x1x64 .f32) (main_arg2 : IVec S1600000 32) (main_arg3 : IVec S1600000 32) (main_arg4 : FVec F S64x128 .f32) (main_arg5 : FVec F S64 .f32) (main_arg6 : FVec F S64x128 .f32) (main_arg7 : FVec F S64 .f32) : IVec S_ 1 :=
  let main_v0 : FVec F S100000x1x64 .f32 := Host.absf main_arg0
  let main_cst : FVec F S_ .f32 := constant S_ .f32 0x7F800000#32
  let main_v1 : FVec F S100000x1x64 .f32 := broadcastInDim S100000x1x64 ![] bcast_S_S100000x1x64 main_cst
  let main_v2 : IVec S100000x1x64 1 := cmpf .olt main_v0 main_v1
  let main_c : IVec S_ 1 := constantI S_ 1 1#1
  let main_v3 : IVec S_ 1 := (fun x v => Host.reduce IntOp.andi x v reducesTo_S100000x1x64_S_d0_1_2 h_S_) main_v2 main_c
  let main_v4 : FVec F S1600000x1x64 .f32 := Host.absf main_arg1
  let main_cst_0 : FVec F S_ .f32 := constant S_ .f32 0x7F800000#32
  let main_v5 : FVec F S1600000x1x64 .f32 := broadcastInDim S1600000x1x64 ![] bcast_S_S1600000x1x64 main_cst_0
  let main_v6 : IVec S1600000x1x64 1 := cmpf .olt main_v4 main_v5
  let main_c_1 : IVec S_ 1 := constantI S_ 1 1#1
  let main_v7 : IVec S_ 1 := (fun x v => Host.reduce IntOp.andi x v reducesTo_S1600000x1x64_S_d0_1_2 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_v13 main_v16
-- ==== Kernel.lean ====
abbrev S100000x1x64 : Shape := ⟨3, ![100000, 1, 64]⟩
abbrev S1600000x1x64 : Shape := ⟨3, ![1600000, 1, 64]⟩
abbrev S1600000 : Shape := ⟨1, ![1600000]⟩
abbrev S64x128 : Shape := ⟨2, ![64, 128]⟩
abbrev S64 : Shape := ⟨1, ![64]⟩
abbrev S1600000x64 : Shape := ⟨2, ![1600000, 64]⟩
abbrev S_ : Shape := ⟨0, ![]⟩
abbrev S100000x64 : Shape := ⟨2, ![100000, 64]⟩
abbrev S1600000x1 : Shape := ⟨2, ![1600000, 1]⟩
abbrev S100000 : Shape := ⟨1, ![100000]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩
abbrev S10000x128 : Shape := ⟨2, ![10000, 128]⟩
abbrev S10000x64 : Shape := ⟨2, ![10000, 64]⟩
abbrev S1 : Shape := ⟨1, ![1]⟩
abbrev S1x1 : Shape := ⟨2, ![1, 1]⟩
abbrev S1600000x128 : Shape := ⟨2, ![1600000, 128]⟩
abbrev S16000x128 : Shape := ⟨2, ![16000, 128]⟩
abbrev S16000x64 : Shape := ⟨2, ![16000, 64]⟩

abbrev nBuf : Space → Nat
  | .hbm => 72
  | .vmem => 12
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1600000x64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000x64, .f32⟩
  | .hbm, ⟨13, _⟩ => ⟨S1600000x1, .i32⟩
  | .hbm, ⟨14, _⟩ => ⟨S100000x64, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S128x64, .f32⟩
  | .hbm, ⟨41, _⟩ => ⟨S1x64, .f32⟩
  | .hbm, ⟨42, _⟩ => ⟨S100000x64, .f32⟩
  | .hbm, ⟨43, _⟩ => ⟨S100000x1x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1, .i32⟩
  | .hbm, ⟨53, _⟩ => ⟨S_, .i32⟩
  | .hbm, ⟨54, _⟩ => ⟨S1600000x1, .i32⟩
  | .hbm, ⟨55, _⟩ => ⟨S1600000x1, .i1⟩
  | .hbm, ⟨56, _⟩ => ⟨S1x1, .i32⟩
  | .hbm, ⟨57, _⟩ => ⟨S1600000x1, .i32⟩
  | .hbm, ⟨58, _⟩ => ⟨S1600000x1, .i1⟩
  | .hbm, ⟨59, _⟩ => ⟨S1600000x1, .i1⟩
  | .hbm, ⟨60, _⟩ => ⟨S_, .i1⟩
  | .hbm, ⟨61, _⟩ => ⟨S1600000, .i1⟩
  | .hbm, ⟨62, _⟩ => ⟨S1600000x64, .f32⟩
  | .hbm, ⟨63, _⟩ => ⟨S1600000x64, .i1⟩
  | .hbm, ⟨64, _⟩ => ⟨S_, .f32⟩
  | .hbm, ⟨65, _⟩ => ⟨S1600000x64, .f32⟩
  | .hbm, ⟨66, _⟩ => ⟨S1600000x64, .f32⟩
  | .hbm, ⟨67, _⟩ => ⟨S1600000x128, .f32⟩
  | .hbm, ⟨68, _⟩ => ⟨S128x64, .f32⟩
  | .hbm, ⟨69, _⟩ => ⟨S1x64, .f32⟩
  | .hbm, ⟨70, _⟩ => ⟨S1600000x64, .f32⟩
  | .hbm, ⟨71, _⟩ => ⟨S1600000x1x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S16000x128, .f32⟩
  | .local _ .vmem, ⟨7, _⟩ => ⟨S16000x128, .f32⟩
  | .local _ .vmem, ⟨8, _⟩ => ⟨S128x64, .f32⟩
  | .local _ .vmem, ⟨9, _⟩ => ⟨S1x64, .f32⟩
  | .local _ .vmem, ⟨10, _⟩ => ⟨S16000x64, .f32⟩
  | .local _ .vmem, ⟨11, _⟩ => ⟨S16000x64, .f32⟩
  | _, _ => ⟨S100000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1600000x1x64_S1600000x64 : S1600000x1x64.ShapeCasts S1600000x64
  bcast_S_S1600000 : S_.BroadcastsInDim S1600000 (![] : Fin 0 → Fin S1600000.rank)
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S100000x64_S100000x1x64 : S100000x64.ShapeCasts S100000x1x64
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  concatenates_S1600000x64_S1600000x64_S1600000x128_d1 : Shape.Concatenates [S1600000x64, S1600000x64] S1600000x128 1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  shapeCasts_S1600000x64_S1600000x1x64 : S1600000x64.ShapeCasts S1600000x1x64
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  dot_S16000x128_S128x64_S16000x64_1_0_0_1_n_n_wf : DotDims.WF S16000x128 S128x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S1600000x128.size a
  hwx1_0 : ∀ i : grid1.Coords, EltTy.bits .f32 = 32 ∨ (Rect.block (s := S1600000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S1600000x64.size a
  hwx1_3 : ∀ i : grid1.Coords, EltTy.bits .f32 = 32 ∨ (Rect.block (s := S1600000x64) S16000x64.size (cc1_transform_3 i) (hinb1_3 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S16000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x1x64 : Shape := ⟨3, ![100000, 1, 64]⟩
abbrev S1600000x1x64 : Shape := ⟨3, ![1600000, 1, 64]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S100000 : Shape := ⟨1, ![100000]⟩
abbrev S100000x1x1 : Shape := ⟨3, ![100000, 1, 1]⟩
abbrev S100000x1x128 : Shape := ⟨3, ![100000, 1, 128]⟩
abbrev S1x1x64 : Shape := ⟨3, ![1, 1, 64]⟩
abbrev S1600000x1x128 : Shape := ⟨3, ![1600000, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S_, .f32⟩
  | .hbm, ⟨9, _⟩ => ⟨S100000x1x64, .f32⟩
  | .hbm, ⟨10, _⟩ => ⟨S1600000x1, .i32⟩
  | .hbm, ⟨11, _⟩ => ⟨S100000x1x64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1x1, .f32⟩
  | .hbm, ⟨22, _⟩ => ⟨S100000x1x64, .f32⟩
  | .hbm, ⟨23, _⟩ => ⟨S100000x1x64, .f32⟩
  | .hbm, ⟨24, _⟩ => ⟨S_, .f32⟩
  | .hbm, ⟨25, _⟩ => ⟨S100000x1x64, .f32⟩
  | .hbm, ⟨26, _⟩ => ⟨S1600000x1, .i32⟩
  | .hbm, ⟨27, _⟩ => ⟨S100000x1x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1x1, .f32⟩
  | .hbm, ⟨38, _⟩ => ⟨S100000x1x64, .f32⟩
  | .hbm, ⟨39, _⟩ => ⟨S100000x1x64, .f32⟩
  | .hbm, ⟨40, _⟩ => ⟨S100000x1x128, .f32⟩
  | .hbm, ⟨41, _⟩ => ⟨S100000x1x64, .f32⟩
  | .hbm, ⟨42, _⟩ => ⟨S1x1x64, .f32⟩
  | .hbm, ⟨43, _⟩ => ⟨S100000x1x64, .f32⟩
  | .hbm, ⟨44, _⟩ => ⟨S100000x1x64, .f32⟩
  | .hbm, ⟨45, _⟩ => ⟨S_, .f32⟩
  | .hbm, ⟨46, _⟩ => ⟨S100000x1x64, .f32⟩
  | .hbm, ⟨47, _⟩ => ⟨S100000x1x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x1x64, .f32⟩
  | .hbm, ⟨57, _⟩ => ⟨S1600000x1x128, .f32⟩
  | .hbm, ⟨58, _⟩ => ⟨S1600000x1x64, .f32⟩
  | .hbm, ⟨59, _⟩ => ⟨S1x1x64, .f32⟩
  | .hbm, ⟨60, _⟩ => ⟨S1600000x1x64, .f32⟩
  | .hbm, ⟨61, _⟩ => ⟨S1600000x1x64, .f32⟩
  | _, _ => ⟨S100000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S_S100000x1x64 : S_.BroadcastsInDim S100000x1x64 (![] : Fin 0 → Fin S100000x1x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1x1_0 : S100000.BroadcastsInDim S100000x1x1 (![0] : Fin 1 → Fin S100000x1x1.rank)
  bcast_S100000x1x1_S100000x1x64_0_1_2 : S100000x1x1.BroadcastsInDim S100000x1x64 (![0, 1, 2] : Fin 3 → Fin S100000x1x64.rank)
  concatenates_S100000x1x64_S100000x1x64_S100000x1x128_d2 : Shape.Concatenates [S100000x1x64, S100000x1x64] S100000x1x128 2
  bcast_S64_S1x1x64_2 : S64.BroadcastsInDim S1x1x64 (![2] : Fin 1 → Fin S1x1x64.rank)
  bcast_S1x1x64_S100000x1x64_0_1_2 : S1x1x64.BroadcastsInDim S100000x1x64 (![0, 1, 2] : Fin 3 → Fin S100000x1x64.rank)
  concatenates_S1600000x1x64_S1600000x1x64_S1600000x1x128_d2 : Shape.Concatenates [S1600000x1x64, S1600000x1x64] S1600000x1x128 2
  bcast_S1x1x64_S1600000x1x64_0_1_2 : S1x1x64.BroadcastsInDim S1600000x1x64 (![0, 1, 2] : Fin 3 → Fin S1600000x1x64.rank)
  scatter_S100000x1x64_S1600000x1_S1600000x1x64_12_0_0_1_wf : ScatterDims.WF S100000x1x64 S1600000x1 S1600000x1x64 [1, 2] [0] [0] 1
  scatter_S100000_S1600000x1_S1600000_n_0_0_1_wf : ScatterDims.WF S100000 S1600000x1 S1600000 [] [0] [0] 1
  dot_S100000x1x128_S64x128_S100000x1x64_2_1_01_0_n_n_wf : DotDims.WF S100000x1x128 S64x128 S100000x1x64 [2] [1] [0, 1] [0] [] []
  gather_S100000x1x64_S1600000x1_S1600000x1x64_12_0_n_n_0_1_1164_wf : GatherDims.WF S100000x1x64 S1600000x1 S1600000x1x64 [1, 2] [0] [] [0] [] 1 ![1, 1, 64]
  dot_S1600000x1x128_S64x128_S1600000x1x64_2_1_01_0_n_n_wf : DotDims.WF S1600000x1x128 S64x128 S1600000x1x64 [2] [1] [0, 1] [0] [] []

variable [Facts₀]

def scatter_S100000x1x64_S1600000x1_S1600000x1x64_12_0_0_1 : ScatterDims S100000x1x64 S1600000x1 S1600000x1x64 where
  updateWindowDims := [1, 2]
  insertedWindowDims := [0]
  scatterDimsToOperandDims := [0]
  indexVectorDim := 1
  wf := scatter_S100000x1x64_S1600000x1_S1600000x1x64_12_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x1x128_S64x128_S100000x1x64_2_1_01_0_n_n : DotDims S100000x1x128 S64x128 S100000x1x64 where
  lhsContracting := [2]
  rhsContracting := [1]
  lhsNonContracting := [0, 1]
  rhsNonContracting := [0]
  lhsBatch := []
  rhsBatch := []
  wf := dot_S100000x1x128_S64x128_S100000x1x64_2_1_01_0_n_n_wf
def gather_S100000x1x64_S1600000x1_S1600000x1x64_12_0_n_n_0_1_1164 : GatherDims S100000x1x64 S1600000x1 S1600000x1x64 where
  offsetDims := [1, 2]
  collapsedSliceDims := [0]
  operandBatchingDims := []
  startIndicesBatchingDims := []
  startIndexMap := [0]
  indexVectorDim := 1
  sliceSizes := ![1, 1, 64]
  wf := gather_S100000x1x64_S1600000x1_S1600000x1x64_12_0_n_n_0_1_1164_wf
def dot_S1600000x1x128_S64x128_S1600000x1x64_2_1_01_0_n_n : DotDims S1600000x1x128 S64x128 S1600000x1x64 where
  lhsContracting := [2]
  rhsContracting := [1]
  lhsNonContracting := [0, 1]
  rhsNonContracting := [0]
  lhsBatch := []
  rhsBatch := []
  wf := dot_S1600000x1x128_S64x128_S1600000x1x64_2_1_01_0_n_n_wf

class Facts : Prop extends Facts₀ where

variable [Facts]
-- ==== Proof.Spec.lean ====
/-
  THE FUNCTION BOTH PROGRAMS COMPUTE, index by index on the extended reals.

  A graph has 100000 nodes and 1600000 edges; edge e carries a feature row of 64 numbers and runs from node u(e) to
  node v(e). For a column of node ids, the edges INCIDENT to node i are those whose id, read as a signed word, is i
  (an id that is negative or past the last node is incident to no node). A node's aggregate by those ids is the
  sum of its incident edges' rows divided by max(number of incident edges, 1): the mean, and zero for a node with no
  incident edge. Each node's 128 numbers — its aggregate by v then its aggregate by u — go through a linear layer
  with weights Wn [64 × 128] and bias bn and a clamp at zero from below: the node result h [100000 × 1 × 64]. Each
  edge's 128 numbers — the node result's row of its source u(e), then its own feature row — go through a second
  linear layer with weights We [64 × 128] and bias be: the edge result [1600000 × 1 × 64].
  The row of the node result an edge reads is its source id clamped into the node range; for ids in range that
  is the id.
-/
import Idealize.ShloMosaic.Lib.ValueIdx
import Idealize.ShloMosaic.Lib.ValueIdxCoords
import Idealize.ShloMosaic.PureOps.Ideal

noncomputable section

open scoped BigOperators

namespace Cert.MeanAggregate

open Idealize.ShloMosaic Idealize.ShloMosaic.ValueIdx

/-- The value of the all-zero f32 word (it is 0; never evaluated here: both programs carry the same word). -/
abbrev zero : EReal := Ideal.ofBits .f32 0x00000000#32
/-- The value of the f32 word of 1.0. -/
abbrev one : EReal := Ideal.ofBits .f32 0x3F800000#32

abbrev EdgeFeats := (⟨3, ![1600000, 1, 64]⟩ : Shape).Idx → EReal
abbrev NodeIds := (⟨1, ![1600000]⟩ : Shape).Idx → BitVec 32
abbrev Weights := (⟨2, ![64, 128]⟩ : Shape).Idx → EReal
abbrev Bias := (⟨1, ![64]⟩ : Shape).Idx → EReal

/-- The edges incident to node `i` under a column of ids: those whose id reads signed as `i`. -/
def incident (ids : NodeIds) (i : Fin 100000) : Finset (Fin 1600000) :=
  Finset.univ.filter fun e => (ids (ix1 e)).toInt = (i.val : Int)

/-- Column `j` of the sum of node `i`'s incident edge rows. -/
def segSum (ef : EdgeFeats) (ids : NodeIds) (i : Fin 100000) (j : Fin 64) : EReal :=
  zero + ∑ e ∈ incident ids i, ef (ix3 e 0 j)

/-- The number of node `i`'s incident edges, as a sum of ones. -/
def degree (ids : NodeIds) (i : Fin 100000) : EReal :=
  zero + ∑ _e ∈ incident ids i, one

/-- Column `j` of node `i`'s aggregate: the sum over max(degree, 1). -/
def segMean (ef : EdgeFeats) (ids : NodeIds) (i : Fin 100000) (j : Fin 64) : EReal :=
  Ideal.div (segSum ef ids i j) (max (degree ids i) one)

/-- Node `i`'s 128 inputs: its aggregate by `v`, then its aggregate by `u`. -/
def nodeIn (ef : EdgeFeats) (u v : NodeIds) (i : Fin 100000) (k : Fin 128) : EReal :=
  if h : k.val < 64 then segMean ef v i ⟨k.val, h⟩ else segMean ef u i ⟨k.val - 64, by omega⟩

/-- Column `o` of node `i`'s result: the first linear layer, clamped at zero from below. -/
def node (ef : EdgeFeats) (u v : NodeIds) (Wn : Weights) (bn : Bias) (i : Fin 100000) (o : Fin 64) : EReal :=
  max ((∑ k : Fin 128, nodeIn ef u v i k * Wn (ix2 o k)) + bn (ix1 o)) zero

/-- The node an edge's source id names: the id read signed and clamped into the node range. -/
def sourceRow (u : NodeIds) (e : Fin 1600000) : Fin 100000 :=
  ⟨min (u (ix1 e)).toInt.toNat 99999, by omega⟩

/-- Edge `e`'s 128 inputs: its source node's result row, then its own feature row. -/
def edgeIn (ef : EdgeFeats) (u v : NodeIds) (Wn : Weights) (bn : Bias) (e : Fin 1600000) (k : Fin 128) : EReal :=
  if h : k.val < 64 then node ef u v Wn bn (sourceRow u e) ⟨k.val, h⟩ else ef (ix3 e 0 ⟨k.val - 64, by omega⟩)

/-- Column `o` of edge `e`'s result: the second linear layer. -/
def edge (ef : EdgeFeats) (u v : NodeIds) (Wn : Weights) (bn : Bias) (We : Weights) (be : Bias)
    (e : Fin 1600000) (o : Fin 64) : EReal :=
  (∑ k : Fin 128, edgeIn ef u v Wn bn e k * We (ix2 o k)) + be (ix1 o)

/-- The node result as an array [100000 × 1 × 64]. -/
def nodeOut (ef : EdgeFeats) (u v : NodeIds) (Wn : Weights) (bn : Bias) :
    (⟨3, ![100000, 1, 64]⟩ : Shape).Idx → EReal :=
  fun i => node ef u v Wn bn (i 0) (i 2)

/-- The edge result as an array [1600000 × 1 × 64]. -/
def edgeOut (ef : EdgeFeats) (u v : NodeIds) (Wn : Weights) (bn : Bias) (We : Weights) (be : Bias) :
    (⟨3, ![1600000, 1, 64]⟩ : Shape).Idx → EReal :=
  fun i => edge ef u v Wn bn We be (i 0) (i 2)

/-- Every source id names a node: read signed it lies in [0, 100000). -/
def InRange (u : NodeIds) : Prop :=
  ∀ e : Fin 1600000, 0 ≤ (u (ix1 e)).toInt ∧ (u (ix1 e)).toInt < 100000

/-- One linear layer on `R` rows of 128 numbers, its weights laid out [128 × 64] and its bias as one row:
    element (r, o) is the sum over k of x(r, k) · w(k, o), plus b(0, o). -/
def linear {R : Nat} (x : (⟨2, ![R, 128]⟩ : Shape).Idx → EReal) (w : (⟨2, ![128, 64]⟩ : Shape).Idx → EReal)
    (b : (⟨2, ![1, 64]⟩ : Shape).Idx → EReal) : (⟨2, ![R, 64]⟩ : Shape).Idx → EReal :=
  fun i => (∑ k : Fin 128, x (ix2 (i 0) k) * w (ix2 k (i 1))) + b (ix2 0 (i 1))

/-- The same layer clamped at zero from below. -/
def linearClamped {R : Nat} (x : (⟨2, ![R, 128]⟩ : Shape).Idx → EReal) (w : (⟨2, ![128, 64]⟩ : Shape).Idx → EReal)
    (b : (⟨2, ![1, 64]⟩ : Shape).Idx → EReal) : (⟨2, ![R, 64]⟩ : Shape).Idx → EReal :=
  fun i => max (linear x w b i) zero

end Cert.MeanAggregate

end
-- ==== Proof.RegionValue.lean ====
/-
  WHAT EACH KERNEL REGION LEAVES IN ITS OUTPUT ARRAY. Both regions are one linear layer tiled by rows: a grid point
  takes a block of rows of the input [rows × 128], the whole weight array [128 × 64] and the bias row [1 × 64],
  and writes the block of the same rows of the output [rows × 64]: the matrix product (a contraction over the
  128 columns into a zero accumulator) plus the bias row, in the first region clamped at zero from below. The
  output blocks tile the output array, so the array after the region is one function of the three input arrays
  as the region found them.
-/
import proofs.«406166_j7241314861140_1_alg».proof.Proof.Gen.KernelIdeal.Frame
import proofs.«406166_j7241314861140_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.SL.Sem Cert.KernelIdeal Cert.KernelIdeal.Gen
open Idealize.ShloMosaic.ValueIdx
open Cert.MeanAggregate (linear linearClamped)
open scoped BigOperators

/-- The zero offsets of a whole-block access, as the constant function. -/
private theorem hz : (![0, 0] : Fin 2 → Nat) = fun _ => 0 :=
  funext fun a => by match a with | ⟨0, _⟩ => rfl | ⟨1, _⟩ => rfl

/-! ## The first region's body at an index -/

/-- The left operand's row axis reads the output's row. -/
private theorem lhs0_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column axis reads the contraction position. -/
private theorem lhs0_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row axis reads the contraction position. -/
private theorem rhs0_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column axis reads the output's column. -/
private theorem rhs0_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block product into the zero accumulator at (p, q): the sum over the 128 columns. -/
private theorem matmul0_apply (a : FVec Ideal S10000x128 .bf16) (b : FVec Ideal S128x64 .bf16) (p : Fin 10000) (q : Fin 64) :
    matmul dot_S10000x128_S128x64_S10000x64_1_0_0_1_n_n none a b (constant S10000x64 .f32 0x00000000#32) (ix2 p q)
      = ∑ k : Fin 128, a (ix2 p k) * b (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The first region's body at (p, q): the product row by column, plus the bias row's entry, clamped at zero. -/
private theorem pay0_apply (x0 : Vec Ideal S10000x128 .f32) (x1 : Vec Ideal S128x64 .f32) (x2 : Vec Ideal S1x64 .f32)
    (p : Fin 10000) (q : Fin 64) :
    k0_pay1 (F := Ideal) x0 x1 x2 (ix2 p q)
      = max ((∑ k : Fin 128, x0 (ix2 p k) * x1 (ix2 k q)) + x2 (ix2 0 q)) (Ideal.ofBits .f32 0x00000000#32) := by
  unfold k0_pay1
  rw [maximumf_apply, addf_apply, matmul0_apply, broadcastTo_1b_ab_apply, broadcast_apply]
  simp only [shapeCast_self, truncf_apply]
  rfl

/-- The first region's index maps over its grid: the input rows' block moves with the output's, which is the point's
    number; the weights and the bias row stay at block (0, 0). -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of a block computed from blocks that are rows `10000 n …` of an input array, the weight array and the
    bias row is row `10000 n + p` of the clamped linear layer of those arrays. -/
private theorem row0_value (x0 : Vec Ideal S10000x128 .f32) (x1 : Vec Ideal S128x64 .f32) (x2 : Vec Ideal S1x64 .f32)
    (A : S100000x128.Idx → EReal) (W : S128x64.Idx → EReal) (B : S1x64.Idx → EReal) (n : Nat)
    (hx0 : ∀ (x : S10000x128.Idx) (k : S100000x128.Idx), (k 0).val = 10000 * n + (x 0).val → (k 1).val = (x 1).val → x0 x = A k)
    (hx1 : ∀ (x k : S128x64.Idx), (k 0).val = (x 0).val → (k 1).val = (x 1).val → x1 x = W k)
    (hx2 : ∀ (x k : S1x64.Idx), (k 0).val = (x 0).val → (k 1).val = (x 1).val → x2 x = B k)
    (p : Fin 10000) (q : Fin 64) (E : S100000x64.Idx)
    (h0 : (E 0).val = 10000 * n + p.val) (h1 : (E 1).val = q.val) :
    max ((∑ k : Fin 128, x0 (ix2 p k) * x1 (ix2 k q)) + x2 (ix2 0 q)) (Ideal.ofBits .f32 0x00000000#32)
      = linearClamped (R := 100000) A W B E := by
  unfold linearClamped linear
  refine congrArg₂ max (congrArg₂ HAdd.hAdd (Finset.sum_congr rfl fun k _ => congrArg₂ HMul.hMul ?_ ?_) ?_) rfl
  · exact hx0 (ix2 p k) (ix2 (E 0) k) h0 rfl
  · exact hx1 (ix2 k q) (ix2 k (E 1)) rfl h1
  · exact hx2 (ix2 0 q) (ix2 0 (E 1)) rfl h1

/-! ## The second region's body at an index -/

/-- The left operand's row axis reads the output's row. -/
private theorem lhs1_0 (i : S16000x64.Idx) (q : dot_S16000x128_S128x64_S16000x64_1_0_0_1_n_n.contr.Idx) :
    (dot_S16000x128_S128x64_S16000x64_1_0_0_1_n_n.lhsIdx i q 0).val = (i 0).val := by
  unfold DotDims.lhsIdx
  rw [dif_neg (show ¬(0 : Fin S16000x128.rank) ∈ dot_S16000x128_S128x64_S16000x64_1_0_0_1_n_n.lhsBatch by decide), dif_pos (show (0 : Fin S16000x128.rank) ∈ dot_S16000x128_S128x64_S16000x64_1_0_0_1_n_n.lhsNonContracting by decide)]
  rfl
/-- The left operand's column axis reads the contraction position. -/
private theorem lhs1_1 (i : S16000x64.Idx) (q : dot_S16000x128_S128x64_S16000x64_1_0_0_1_n_n.contr.Idx) :
    (dot_S16000x128_S128x64_S16000x64_1_0_0_1_n_n.lhsIdx i q 1).val = (q ⟨0, by decide⟩).val :=
  dot_S16000x128_S128x64_S16000x64_1_0_0_1_n_n.lhsIdx_val_of_single rfl i q
/-- The right operand's row axis reads the contraction position. -/
private theorem rhs1_0 (i : S16000x64.Idx) (q : dot_S16000x128_S128x64_S16000x64_1_0_0_1_n_n.contr.Idx) :
    (dot_S16000x128_S128x64_S16000x64_1_0_0_1_n_n.rhsIdx i q 0).val = (q ⟨0, by decide⟩).val :=
  dot_S16000x128_S128x64_S16000x64_1_0_0_1_n_n.rhsIdx_val_of_single rfl i q
/-- The right operand's column axis reads the output's column. -/
private theorem rhs1_1 (i : S16000x64.Idx) (q : dot_S16000x128_S128x64_S16000x64_1_0_0_1_n_n.contr.Idx) :
    (dot_S16000x128_S128x64_S16000x64_1_0_0_1_n_n.rhsIdx i q 1).val = (i 1).val := by
  unfold DotDims.rhsIdx
  rw [dif_neg (show ¬(1 : Fin S128x64.rank) ∈ dot_S16000x128_S128x64_S16000x64_1_0_0_1_n_n.rhsBatch by decide), dif_pos (show (1 : Fin S128x64.rank) ∈ dot_S16000x128_S128x64_S16000x64_1_0_0_1_n_n.rhsNonContracting by decide)]
  rfl

/-- The block product into the zero accumulator at (p, q): the sum over the 128 columns. -/
private theorem matmul1_apply (a : FVec Ideal S16000x128 .bf16) (b : FVec Ideal S128x64 .bf16) (p : Fin 16000) (q : Fin 64) :
    matmul dot_S16000x128_S128x64_S16000x64_1_0_0_1_n_n none a b (constant S16000x64 .f32 0x00000000#32) (ix2 p q)
      = ∑ k : Fin 128, a (ix2 p k) * b (ix2 k q) := by
  simp only [matmul]
  rw [Ideal.matmul_constant_zero_apply, ← Equiv.sum_comp (contrEquiv1 dot_S16000x128_S128x64_S16000x64_1_0_0_1_n_n 128 rfl rfl).symm]
  refine Finset.sum_congr rfl fun k _ => ?_
  have hk := contrEquiv1_symm_val dot_S16000x128_S128x64_S16000x64_1_0_0_1_n_n 128 rfl rfl k
  have el : dot_S16000x128_S128x64_S16000x64_1_0_0_1_n_n.lhsIdx (ix2 p q) ((contrEquiv1 dot_S16000x128_S128x64_S16000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S16000x128_S128x64_S16000x64_1_0_0_1_n_n.rhsIdx (ix2 p q) ((contrEquiv1 dot_S16000x128_S128x64_S16000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The second region's body at (p, q): the product row by column, plus the bias row's entry. -/
private theorem pay1_apply (x0 : Vec Ideal S16000x128 .f32) (x1 : Vec Ideal S128x64 .f32) (x2 : Vec Ideal S1x64 .f32)
    (p : Fin 16000) (q : Fin 64) :
    k1_pay1 (F := Ideal) x0 x1 x2 (ix2 p q)
      = (∑ k : Fin 128, x0 (ix2 p k) * x1 (ix2 k q)) + x2 (ix2 0 q) := by
  unfold k1_pay1
  rw [addf_apply, matmul1_apply, broadcastTo_1b_ab_apply]
  simp only [shapeCast_self, truncf_apply]

/-- The second region's index maps over its grid: the input rows' block moves with the output's, which is the point's
    number; the weights and the bias row stay at block (0, 0). -/
private theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of a block computed from blocks that are rows `16000 n …` of an input array, the weight array and the
    bias row is row `16000 n + p` of the linear layer of those arrays. -/
private theorem row1_value (x0 : Vec Ideal S16000x128 .f32) (x1 : Vec Ideal S128x64 .f32) (x2 : Vec Ideal S1x64 .f32)
    (A : S1600000x128.Idx → EReal) (W : S128x64.Idx → EReal) (B : S1x64.Idx → EReal) (n : Nat)
    (hx0 : ∀ (x : S16000x128.Idx) (k : S1600000x128.Idx), (k 0).val = 16000 * n + (x 0).val → (k 1).val = (x 1).val → x0 x = A k)
    (hx1 : ∀ (x k : S128x64.Idx), (k 0).val = (x 0).val → (k 1).val = (x 1).val → x1 x = W k)
    (hx2 : ∀ (x k : S1x64.Idx), (k 0).val = (x 0).val → (k 1).val = (x 1).val → x2 x = B k)
    (p : Fin 16000) (q : Fin 64) (E : S1600000x64.Idx)
    (h0 : (E 0).val = 16000 * n + p.val) (h1 : (E 1).val = q.val) :
    (∑ k : Fin 128, x0 (ix2 p k) * x1 (ix2 k q)) + x2 (ix2 0 q) = linear (R := 1600000) A W B E := by
  unfold linear
  refine congrArg₂ HAdd.hAdd (Finset.sum_congr rfl fun k _ => congrArg₂ HMul.hMul ?_ ?_) ?_
  · exact hx0 (ix2 p k) (ix2 (E 0) k) h0 rfl
  · exact hx1 (ix2 k q) (ix2 k (E 1)) rfl h1
  · exact hx2 (ix2 0 q) (ix2 0 (E 1)) rfl h1

variable (V : (c : Dev nD) → (b : Ref sig .tc) → Buf (Elt Ideal) ((c : Thread nD τ).loc b))

/-! ## The first region: from the blocks to the array -/

/-- The input rows' block at point `t` is rows `10000 t …` of the input array as found. -/
private theorem iblk0_0_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_v24 : S100000x128.Idx → EReal) k := by
  obtain ⟨e0, e1, -⟩ := idx_facts0 t
  unfold iblk0
  rw [View.read_apply]
  show V c main_v24 _ = V c main_v24 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The weights' block at every point is the weight array as found. -/
private theorem iblk0_1_apply (c : Dev nD) (t : Fin cfg0.N) (x : S128x64.Idx) (k : S128x64.Idx)
    (hk0 : (k 0).val = (x 0).val) (hk1 : (k 1).val = (x 1).val) :
    (iblk0 V c 1 t : Vec Ideal S128x64 .f32) x = (V c main_v25 : S128x64.Idx → EReal) k := by
  obtain ⟨-, -, e2, e3, -⟩ := idx_facts0 t
  unfold iblk0
  rw [View.read_apply]
  show V c main_v25 _ = V c main_v25 _
  congr 1
  funext a
  apply Fin.ext
  match a with
  | ⟨0, _⟩ => show win0_1.index t 0 * 128 + 1 * (x 0).val = (k 0).val; rw [e2, hk0]; omega
  | ⟨1, _⟩ => show win0_1.index t 1 * 64 + 1 * (x 1).val = (k 1).val; rw [e3, hk1]; omega

/-- The bias row's block at every point is the bias row as found. -/
private theorem iblk0_2_apply (c : Dev nD) (t : Fin cfg0.N) (x : S1x64.Idx) (k : S1x64.Idx)
    (hk0 : (k 0).val = (x 0).val) (hk1 : (k 1).val = (x 1).val) :
    (iblk0 V c 2 t : Vec Ideal S1x64 .f32) x = (V c main_v26 : S1x64.Idx → EReal) k := by
  obtain ⟨-, -, -, -, e4, e5, -⟩ := idx_facts0 t
  unfold iblk0
  rw [View.read_apply]
  show V c main_v26 _ = V c main_v26 _
  congr 1
  funext a
  apply Fin.ext
  match a with
  | ⟨0, _⟩ => show win0_2.index t 0 * 1 + 1 * (x 0).val = (k 0).val; rw [e4, hk0]; omega
  | ⟨1, _⟩ => show win0_2.index t 1 * 64 + 1 * (x 1).val = (k 1).val; rw [e5, hk1]; omega

/-- What a point of the first region writes back is its block of the clamped linear layer of the arrays as found. -/
private theorem flushed0_eq (c : Dev nD) (t : Fin cfg0.N) :
    (dat0 (F := Ideal) V c).flushed 3 t = ((cfg0.win 3).blk t).view.read (Elt Ideal)
      (linearClamped (R := 100000) (V c main_v24) (V c main_v25) (V c main_v26)) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x64) hz, View.ld_unit_zero (S := S1x64) hz]
  refine funext fun (j : S10000x64.Idx) => ?_
  obtain ⟨p, q, rfl⟩ : ∃ (p : Fin 10000) (q : Fin 64), j = ix2 p q := ⟨j 0, j 1, eq_ix2 j⟩
  refine (pay0_apply (iblk0 V c 0 t) (iblk0 V c 1 t) (iblk0 V c 2 t) p q).trans ?_
  obtain ⟨-, -, -, -, -, -, e6, e7⟩ := idx_facts0 t
  have h0 : ((((cfg0.win 3).blk t).view.emb (ix2 p q) : S100000x64.Idx) 0).val = 10000 * t.val + p.val := by
    show win0_3.index t (0 : Fin 2) * 10000 + 1 * p.val = _; rw [e6]; omega
  have h1 : ((((cfg0.win 3).blk t).view.emb (ix2 p q) : S100000x64.Idx) 1).val = q.val := by
    show win0_3.index t (1 : Fin 2) * 64 + 1 * q.val = _; rw [e7]; omega
  exact row0_value (iblk0 V c 0 t) (iblk0 V c 1 t) (iblk0 V c 2 t) (V c main_v24) (V c main_v25) (V c main_v26) t.val
    (iblk0_0_apply V c t) (iblk0_1_apply V c t) (iblk0_2_apply V c t) p q _ h0 h1

/-- An index of the output array is in point `t`'s block iff each coordinate is in the block's range on its axis. -/
private theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v27).slice (win0_3.rect t)).set ↔ _
  rw [View.set_slice_whole, Rect.mem_set_unit]
  exact Iff.rfl

/-- Every index of the output array is in the block of the point its row falls to: row `r` is in block `r / 10000`. -/
private theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    rw [e6, ht]; omega
  | ⟨1, _⟩ =>
    show win0_3.index t (1 : Fin 2) * 64 ≤ (i 1).val ∧ (i 1).val < win0_3.index t (1 : Fin 2) * 64 + 64
    rw [e7]; omega

/-- The first region's output array [100000 × 64] after the region: the clamped linear layer of the arrays it found. -/
theorem final0 (c : Dev nD) :
    (dat0 (F := Ideal) V c).arrAt 3 cfg0.N = linearClamped (R := 100000) (V c main_v24) (V c main_v25) (V c main_v26) :=
  (dat0 (F := Ideal) V c).arrAt_eq_of_cover 3 (linearClamped (R := 100000) (V c main_v24) (V c main_v25) (V c main_v26))
    (fun t _ => flushed0_eq V c t) cover0

/-! ## The second region: from the blocks to the array -/

/-- The input rows' block at point `t` is rows `16000 t …` of the input array as found. -/
private theorem iblk1_0_apply (c : Dev nD) (t : Fin cfg1.N) (x : S16000x128.Idx) (k : S1600000x128.Idx)
    (hk0 : (k 0).val = 16000 * t.val + (x 0).val) (hk1 : (k 1).val = (x 1).val) :
    (iblk1 V c 0 t : Vec Ideal S16000x128 .f32) x = (V c main_v30 : S1600000x128.Idx → EReal) k := by
  obtain ⟨e0, e1, -⟩ := idx_facts1 t
  unfold iblk1
  rw [View.read_apply]
  show V c main_v30 _ = V c main_v30 _
  congr 1
  funext a
  apply Fin.ext
  match a with
  | ⟨0, _⟩ => show win1_0.index t 0 * 16000 + 1 * (x 0).val = (k 0).val; rw [e0, hk0]; omega
  | ⟨1, _⟩ => show win1_0.index t 1 * 128 + 1 * (x 1).val = (k 1).val; rw [e1, hk1]; omega

/-- The weights' block at every point is the weight array as found. -/
private theorem iblk1_1_apply (c : Dev nD) (t : Fin cfg1.N) (x : S128x64.Idx) (k : S128x64.Idx)
    (hk0 : (k 0).val = (x 0).val) (hk1 : (k 1).val = (x 1).val) :
    (iblk1 V c 1 t : Vec Ideal S128x64 .f32) x = (V c main_v31 : S128x64.Idx → EReal) k := by
  obtain ⟨-, -, e2, e3, -⟩ := idx_facts1 t
  unfold iblk1
  rw [View.read_apply]
  show V c main_v31 _ = V c main_v31 _
  congr 1
  funext a
  apply Fin.ext
  match a with
  | ⟨0, _⟩ => show win1_1.index t 0 * 128 + 1 * (x 0).val = (k 0).val; rw [e2, hk0]; omega
  | ⟨1, _⟩ => show win1_1.index t 1 * 64 + 1 * (x 1).val = (k 1).val; rw [e3, hk1]; omega

/-- The bias row's block at every point is the bias row as found. -/
private theorem iblk1_2_apply (c : Dev nD) (t : Fin cfg1.N) (x : S1x64.Idx) (k : S1x64.Idx)
    (hk0 : (k 0).val = (x 0).val) (hk1 : (k 1).val = (x 1).val) :
    (iblk1 V c 2 t : Vec Ideal S1x64 .f32) x = (V c main_v32 : S1x64.Idx → EReal) k := by
  obtain ⟨-, -, -, -, e4, e5, -⟩ := idx_facts1 t
  unfold iblk1
  rw [View.read_apply]
  show V c main_v32 _ = V c main_v32 _
  congr 1
  funext a
  apply Fin.ext
  match a with
  | ⟨0, _⟩ => show win1_2.index t 0 * 1 + 1 * (x 0).val = (k 0).val; rw [e4, hk0]; omega
  | ⟨1, _⟩ => show win1_2.index t 1 * 64 + 1 * (x 1).val = (k 1).val; rw [e5, hk1]; omega

/-- What a point of the second region writes back is its block of the linear layer of the arrays as found. -/
private theorem flushed1_eq (c : Dev nD) (t : Fin cfg1.N) :
    (dat1 (F := Ideal) V c).flushed 3 t = ((cfg1.win 3).blk t).view.read (Elt Ideal)
      (linear (R := 1600000) (V c main_v30) (V c main_v31) (V c main_v32)) := by
  show (cfg1.win 3).cut (grid1.coords t) ((dat1 (F := Ideal) V c).after 3 t) = _
  rw [after1_3]
  unfold out1_3
  rw [View.canon_unit_zero hz]
  simp only [View.ld_unit_zero (S := S16000x128) hz, View.ld_unit_zero (S := S128x64) hz, View.ld_unit_zero (S := S1x64) hz]
  refine funext fun (j : S16000x64.Idx) => ?_
  obtain ⟨p, q, rfl⟩ : ∃ (p : Fin 16000) (q : Fin 64), j = ix2 p q := ⟨j 0, j 1, eq_ix2 j⟩
  refine (pay1_apply (iblk1 V c 0 t) (iblk1 V c 1 t) (iblk1 V c 2 t) p q).trans ?_
  obtain ⟨-, -, -, -, -, -, e6, e7⟩ := idx_facts1 t
  have h0 : ((((cfg1.win 3).blk t).view.emb (ix2 p q) : S1600000x64.Idx) 0).val = 16000 * t.val + p.val := by
    show win1_3.index t (0 : Fin 2) * 16000 + 1 * p.val = _; rw [e6]; omega
  have h1 : ((((cfg1.win 3).blk t).view.emb (ix2 p q) : S1600000x64.Idx) 1).val = q.val := by
    show win1_3.index t (1 : Fin 2) * 64 + 1 * q.val = _; rw [e7]; omega
  exact row1_value (iblk1 V c 0 t) (iblk1 V c 1 t) (iblk1 V c 2 t) (V c main_v30) (V c main_v31) (V c main_v32) t.val
    (iblk1_0_apply V c t) (iblk1_1_apply V c t) (iblk1_2_apply V c t) p q _ h0 h1

/-- An index of the output array is in point `t`'s block iff each coordinate is in the block's range on its axis. -/
private theorem mem_blk1 (t : Fin cfg1.N) (i : S1600000x64.Idx) :
    i ∈ ((cfg1.win 3).blk t).view.set ↔ ∀ a : Fin 2, win1_3.index t a * S16000x64.size a ≤ (i a).val
      ∧ (i a).val < win1_3.index t a * S16000x64.size a + S16000x64.size a := by
  show i ∈ ((View.whole main_v33).slice (win1_3.rect t)).set ↔ _
  rw [View.set_slice_whole, Rect.mem_set_unit]
  exact Iff.rfl

/-- Every index of the output array is in the block of the point its row falls to: row `r` is in block `r / 16000`. -/
private theorem cover1 (i : S1600000x64.Idx) :
    ∃ t : Fin cfg1.N, (cfg1.win 3).flush t = true ∧ i ∈ ((cfg1.win 3).blk t).view.set := by
  have hi0 : (i 0).val < 1600000 := (i 0).isLt
  have hi1 : (i 1).val < 64 := (i 1).isLt
  obtain ⟨t, ht⟩ : ∃ t : Fin cfg1.N, t.val = (i 0).val / 16000 :=
    ⟨⟨(i 0).val / 16000, by show (i 0).val / 16000 < grid1.N; rw [N_1]; omega⟩, rfl⟩
  obtain ⟨-, -, -, -, -, -, e6, e7⟩ := idx_facts1 t
  refine ⟨t, flush1_3 t, ?_⟩
  rw [mem_blk1]
  intro a
  match a with
  | ⟨0, _⟩ =>
    show win1_3.index t (0 : Fin 2) * 16000 ≤ (i 0).val ∧ (i 0).val < win1_3.index t (0 : Fin 2) * 16000 + 16000
    rw [e6, ht]; omega
  | ⟨1, _⟩ =>
    show win1_3.index t (1 : Fin 2) * 64 ≤ (i 1).val ∧ (i 1).val < win1_3.index t (1 : Fin 2) * 64 + 64
    rw [e7]; omega

/-- The second region's output array [1600000 × 64] after the region: the linear layer of the arrays it found. -/
theorem final1 (c : Dev nD) :
    (dat1 (F := Ideal) V c).arrAt 3 cfg1.N = linear (R := 1600000) (V c main_v30) (V c main_v31) (V c main_v32) :=
  (dat1 (F := Ideal) V c).arrAt_eq_of_cover 3 (linear (R := 1600000) (V c main_v30) (V c main_v31) (V c main_v32))
    (fun t _ => flushed1_eq V c t) cover1

end Cert.KernelIdeal.RegionValue

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.KernelHost.lean ====
/-
  THE KERNEL PROGRAM'S HOST STAGES, each as one function of its operands and read at an index.

  Around its two linear-layer regions the kernel program does on the host what the reference does, on arrays without
  the unit middle axis: the edge rows as [1600000 × 64]; per column of ids the scatter-add of the rows and of ones
  into zeros, the count clamped at one from below, laid along the rows, and the quotient — the aggregate; the two
  aggregates side by side [100000 × 128]; the weights transposed to [128 × 64] and the bias as one row. After the
  first region: the source ids with negative ones wrapped by the node count, the take of the node result's rows at
  them — a gather, and NaN filled in where the wrapped id is outside [0, 99999] — and that beside the edge rows
  [1600000 × 128]. For source ids in range the wrap does nothing, the range test passes on every row and the take
  reads the source's row.
-/
import proofs.«406166_j7241314861140_1_alg».proof.KernelIdeal
import proofs.«406166_j7241314861140_1_alg».proof.Proof.Gen.KernelIdeal
import proofs.«406166_j7241314861140_1_alg».proof.Proof.LibGatherScatter
import proofs.«406166_j7241314861140_1_alg».proof.Proof.Spec
import Idealize.ShloMosaic.Lib.Pipeline.Value
import Idealize.ShloMosaic.Lib.ValueLayout
import Idealize.ShloMosaic.Lib.ReduceAll
import Idealize.ShloMosaic.PureOps.Reduce

noncomputable section

open scoped BigOperators

namespace Cert.KernelIdeal.HostStages

open Idealize.ShloMosaic Idealize.ShloMosaic.ValueIdx Idealize.ShloMosaic.StableHlo.Predicate
open Idealize.ShloMosaic.RowOps Cert.KernelIdeal Cert.KernelIdeal.Facts₀
open Cert.MeanAggregate

/-! ## Indices written two ways -/

theorem ij_eq_ix2 {n k : Nat} (p : Fin n) (q : Fin k) : ij p q = ix2 p q := by
  funext a
  match a with
  | ⟨0, _⟩ => rfl
  | ⟨1, _⟩ => rfl

theorem first_eq_ix0 (h0 : 0 < (⟨0, ![]⟩ : Shape).numel) : Shape.Idx.first h0 = ix0 := funext fun a => a.elim0

/-! ## Host operations at the extended reals, stated once over abstract shapes -/

/-- At the extended reals the host's scatter-add is the sum form. -/
theorem host_scatterAdd_ideal {s si su : Shape} (d : ScatterDims s si su) {w : Nat} (x : s.Idx → EReal)
    (idx : IVec si w) (upd : su.Idx → EReal) :
    Host.scatterAdd (F := Ideal) (φ := .f32) d x idx upd = Ideal.hostScatterAdd d x idx upd := rfl

/-- The host's quotient at an index is the quotient of the extended reals. -/
theorem host_divf_apply {s : Shape} (a b : FVec Ideal s .f32) (i : s.Idx) :
    Host.divf a b i = Ideal.div (a i) (b i) := rfl

/-! ## The layout stages -/

/-- The edge rows without the unit middle axis. -/
def rows2 (ef : FVec Ideal S1600000x1x64 .f32) : FVec Ideal S1600000x64 .f32 :=
  shapeCast S1600000x64 ef shapeCasts_S1600000x1x64_S1600000x64

theorem rows2_apply (ef : FVec Ideal S1600000x1x64 .f32) (e : Fin 1600000) (j : Fin 64) :
    rows2 ef (ix2 e j) = ef (ix3 e 0 j) := by
  unfold rows2
  refine shapeCast_apply ef _ _ _ ?_
  rw [Shape.rowMajor_val_three, Shape.rowMajor_val_two]
  show (e.val * 1 + 0) * 64 + j.val = e.val * 64 + j.val
  omega

/-- A vector of ids as an [1600000 × 1] column. -/
def idCol (ids : IVec S1600000 32) : IVec S1600000x1 32 :=
  broadcastInDim S1600000x1 ![0] bcast_S1600000_S1600000x1_0 ids

theorem idCol_apply (ids : IVec S1600000 32) (e : Fin 1600000) : idCol ids (ixP e) = ids (ix1 e) := by
  unfold idCol
  rw [bcast_col1, ofFin_eq_ix1]

/-- An update row lands on a node under the column exactly when its id reads signed as the node. -/
theorem lands_idCol (ids : IVec S1600000 32) (e : Fin 1600000) (i : Nat) :
    lands (idCol ids) e i ↔ (ids (ix1 e)).toInt = (i : Int) := by
  unfold lands
  rw [idCol_apply]

theorem filter_lands_idCol (ids : IVec S1600000 32) (i : Fin 100000) :
    (Finset.univ.filter fun e : Fin 1600000 => lands (idCol ids) e i.val) = incident ids i := by
  unfold incident
  exact Finset.filter_congr fun e _ => lands_idCol ids e i.val

/-- The weights transposed. -/
def weightsT (W : FVec Ideal S64x128 .f32) : FVec Ideal S128x64 .f32 :=
  transpose S128x64 [1, 0] W transposes_S64x128_S128x64_1_0

theorem weightsT_apply (W : FVec Ideal S64x128 .f32) (k : Fin 128) (o : Fin 64) :
    weightsT W (ix2 k o) = W (ix2 o k) := by
  unfold weightsT
  exact transpose_ix2_apply W _ k o

/-- The bias as one row. -/
def biasRow (b : FVec Ideal S64 .f32) : FVec Ideal S1x64 .f32 :=
  shapeCast S1x64 b shapeCasts_S64_S1x64

theorem biasRow_apply (b : FVec Ideal S64 .f32) (o : Fin 64) : biasRow b (ix2 0 o) = b (ix1 o) := by
  unfold biasRow
  exact shapeCast_a_1a_apply b _ 0 o

/-! ## The aggregate by a column of ids -/

/-- The sum of the incident edges' rows: a scatter-add of the rows into zeros. -/
def rowSums (ef2 : FVec Ideal S1600000x64 .f32) (ids : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (idCol ids) ef2

theorem rowSums_apply (ef2 : FVec Ideal S1600000x64 .f32) (ids : IVec S1600000 32) (i : Fin 100000) (j : Fin 64) :
    rowSums ef2 ids (ix2 i j) = zero + ∑ e ∈ incident ids i, ef2 (ix2 e j) := by
  unfold rowSums
  rw [host_scatterAdd_ideal]
  have h := scatterAdd_rows (K := 100000) (D := 64) (n := 1600000) (w := 32)
    scatter_S100000x64_S1600000x1_S1600000x64_1_0_0_1 rfl rfl rfl rfl
    (broadcastInDim S100000x64 ![] bcast_S_S100000x64 (constant (F := Ideal) S_ .f32 0x00000000#32)) (idCol ids) ef2 i j
  rw [h, filter_lands_idCol, bcast_scalar bcast_S_S100000x64 (by decide)]
  rfl

/-- The number of incident edges: a scatter-add of ones into zeros. -/
def counts (ids : IVec S1600000 32) : FVec Ideal S100000 .f32 :=
  Host.scatterAdd scatter_S100000_S1600000x1_S1600000_n_0_0_1
    (broadcastInDim S100000 ![] bcast_S_S100000 (constant (F := Ideal) S_ .f32 0x00000000#32)) (idCol ids)
    (broadcastInDim S1600000 ![] bcast_S_S1600000 (constant (F := Ideal) S_ .f32 0x3F800000#32))

theorem counts_apply (ids : IVec S1600000 32) (i : Fin 100000) : counts ids (ix1 i) = degree ids i := by
  unfold counts degree
  rw [host_scatterAdd_ideal]
  have h := scatterAdd_row1 (K := 100000) (n := 1600000) (w := 32)
    scatter_S100000_S1600000x1_S1600000_n_0_0_1 rfl rfl rfl rfl
    (broadcastInDim S100000 ![] bcast_S_S100000 (constant (F := Ideal) S_ .f32 0x00000000#32)) (idCol ids)
    (broadcastInDim S1600000 ![] bcast_S_S1600000 (constant (F := Ideal) S_ .f32 0x3F800000#32)) i
  rw [h, filter_lands_idCol, bcast_scalar bcast_S_S100000 (by decide)]
  rfl

/-- The aggregate: the row sums over the count clamped at one from below, the divisor laid along the rows. -/
def aggregate (ef2 : FVec Ideal S1600000x64 .f32) (ids : IVec S1600000 32) : FVec Ideal S100000x64 .f32 :=
  Host.divf (rowSums ef2 ids)
    (broadcastInDim S100000x64 ![0, 1] bcast_S100000x1_S100000x64_0_1
      (broadcastInDim S100000x1 ![0] bcast_S100000_S100000x1_0
        (maximumf (counts ids)
          (broadcastInDim S100000 ![] bcast_S_S100000 (constant (F := Ideal) S_ .f32 0x3F800000#32)))))

theorem aggregate_apply (ef : FVec Ideal S1600000x1x64 .f32) (ids : IVec S1600000 32) (i : Fin 100000) (j : Fin 64) :
    aggregate (rows2 ef) ids (ix2 i j) = segMean ef ids i j := by
  unfold aggregate segMean segSum
  rw [host_divf_apply, rowSums_apply, ← ij_eq_ix2, bcast_rows bcast_S100000_S100000x1_0 bcast_S100000x1_S100000x64_0_1, ofFin_eq_ix1,
    maximumf_apply, counts_apply, bcast_scalar bcast_S_S100000 (by decide)]
  simp only [rows2_apply]
  rfl

/-- Two [100000 × 64] arrays side by side. -/
def besideN (a b : FVec Ideal S100000x64 .f32) : FVec Ideal S100000x128 .f32 :=
  concatenate S100000x128 1 [⟨S100000x64, a⟩, ⟨S100000x64, b⟩] concatenates_S100000x64_S100000x64_S100000x128_d1

theorem besideN_left (a b : FVec Ideal S100000x64 .f32) (i : Fin 100000) (k : Fin 128) (h : k.val < 64) :
    besideN a b (ix2 i k) = a (ix2 i ⟨k.val, h⟩) := by
  unfold besideN
  exact concatenate_pair_apply_left (t := S100000x128) (s₁ := S100000x64) (s₂ := S100000x64) 1 a b
    concatenates_S100000x64_S100000x64_S100000x128_d1 (ix2 i k) rfl (ix2 i ⟨k.val, h⟩)
    (fun c => by match c with | ⟨0, _⟩ => rfl | ⟨1, _⟩ => rfl)

theorem besideN_right (a b : FVec Ideal S100000x64 .f32) (i : Fin 100000) (k : Fin 128) (h : ¬ k.val < 64) :
    besideN a b (ix2 i k) = b (ix2 i ⟨k.val - 64, by omega⟩) := by
  unfold besideN
  exact concatenate_pair_apply_right (t := S100000x128) (s₁ := S100000x64) (s₂ := S100000x64) 1 a b
    concatenates_S100000x64_S100000x64_S100000x128_d1 (ix2 i k) rfl rfl (ix2 i ⟨k.val - 64, by omega⟩)
    (fun c hc => by match c with | ⟨0, _⟩ => rfl | ⟨1, _⟩ => exact absurd rfl hc)
    (by show (k.val - 64) + 64 = k.val; omega)

/-- A node's 128 inputs in the kernel program: its aggregate by v beside its aggregate by u. -/
theorem nodeIn_eq (ef : FVec Ideal S1600000x1x64 .f32) (u v : IVec S1600000 32) (i : Fin 100000) (k : Fin 128) :
    besideN (aggregate (rows2 ef) v) (aggregate (rows2 ef) u) (ix2 i k) = nodeIn ef u v i k := by
  unfold nodeIn
  by_cases h : k.val < 64
  · rw [dif_pos h, besideN_left _ _ _ _ h, aggregate_apply]
  · rw [dif_neg h, besideN_right _ _ _ _ h, aggregate_apply]

/-- The node result [100000 × 64]: the clamped linear layer of the joined aggregates. -/
def nodes2 (ef : FVec Ideal S1600000x1x64 .f32) (u v : IVec S1600000 32) (Wn : FVec Ideal S64x128 .f32)
    (bn : FVec Ideal S64 .f32) : FVec Ideal S100000x64 .f32 :=
  linearClamped (R := 100000) (besideN (aggregate (rows2 ef) v) (aggregate (rows2 ef) u)) (weightsT Wn) (biasRow bn)

theorem nodes2_apply (ef : FVec Ideal S1600000x1x64 .f32) (u v : IVec S1600000 32) (Wn : FVec Ideal S64x128 .f32)
    (bn : FVec Ideal S64 .f32) (i : Fin 100000) (o : Fin 64) :
    nodes2 ef u v Wn bn (ix2 i o) = node ef u v Wn bn i o := by
  unfold nodes2 linearClamped linear node
  simp only [ix2_0, ix2_1, biasRow_apply, nodeIn_eq, weightsT_apply]

/-! ## The take of the node result's rows at the source ids -/

/-- The source ids with negative ones wrapped by the node count. -/
def wrapped (u : IVec S1600000 32) : IVec S1600000 32 :=
  select (cmpi .slt u (broadcastInDim S1600000 ![] bcast_S_S1600000 (constantI S_ 32 0#32)))
    (addi u (broadcastInDim S1600000 ![] bcast_S_S1600000 (constantI S_ 32 100000#32))) u

theorem wrapped_of_nonneg (u : IVec S1600000 32) (e : Fin 1600000) (h : 0 ≤ (u (ix1 e)).toInt) :
    wrapped u (ix1 e) = u (ix1 e) := by
  unfold wrapped
  rw [select_apply]
  have hc : cmpi .slt u (broadcastInDim S1600000 ![] bcast_S_S1600000 (constantI S_ 32 0#32)) (ix1 e) = 0#1 := by
    apply eq_zero_of_ne_one
    intro h1
    have h2 : (u (ix1 e)).toInt < (0#32 : BitVec 32).toInt := by
      have := IntOp.cmpi_slt.1 h1
      rwa [bcast_scalar bcast_S_S1600000 (by decide)] at this
    have h0 : (0#32 : BitVec 32).toInt = 0 := by decide
    omega
  rw [hc, select_zero]

/-- A fold by `and` from 1 over 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_ones f l fun n hn => h n (List.mem_cons_of_mem _ hn)

/-- Any index of the [1600000 × 1] column is a row number beside the one unit coordinate. -/
theorem exists_ixP (i : S1600000x1.Idx) : ∃ e : Fin 1600000, i = ixP e := by
  refine ⟨⟨(i 0).val, (i 0).isLt⟩, funext fun a => ?_⟩
  match a with
  | ⟨0, _⟩ => rfl
  | ⟨1, _⟩ =>
    apply Fin.ext
    have h : (i 1).val < 1 := (i 1).isLt
    show (i 1).val = 0
    omega

/-- For source ids in range the wrapped id, anywhere in its column, lies in [0, 99999]. -/
theorem wrapped_inRange (u : IVec S1600000 32) (hu : InRange u) (i : S1600000x1.Idx) :
    0 ≤ (idCol (wrapped u) i).toInt ∧ (idCol (wrapped u) i).toInt ≤ 99999 := by
  obtain ⟨e, rfl⟩ := exists_ixP i
  rw [idCol_apply, wrapped_of_nonneg u e (hu e).1]
  have := hu e
  omega

/-- The range test of the take: per row, whether the wrapped id lies in [0, 99999]. -/
def rangeMask (u : IVec S1600000 32) : IVec S1600000 1 :=
  Host.reduce IntOp.andi
    (andi
      (cmpi .sge (idCol (wrapped u)) (broadcastInDim S1600000x1 ![] bcast_S_S1600000x1 (constantI S_ 32 0#32)))
      (cmpi .sle (idCol (wrapped u))
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- For source ids in range every entry the range test reduces over is 1. -/
theorem rangeTest_one (u : IVec S1600000 32) (hu : InRange u) (i : S1600000x1.Idx) :
    andi
      (cmpi .sge (idCol (wrapped u)) (broadcastInDim S1600000x1 ![] bcast_S_S1600000x1 (constantI S_ 32 0#32)))
      (cmpi .sle (idCol (wrapped u))
        (broadcastInDim S1600000x1 ![0, 1] bcast_S1x1_S1600000x1_0_1
          (broadcastInDim S1x1 ![1] bcast_S1_S1x1_1 (constantI S1 32 99999#32)))) i = 1#1 := by
  obtain ⟨h0, h1⟩ := wrapped_inRange u hu i
  refine IntOp.andi_eq_one.2 ⟨IntOp.cmpi_sge.2 ?_, IntOp.cmpi_sle.2 ?_⟩
  · show (0#32 : BitVec 32).toInt ≤ _
    have hz : (0#32 : BitVec 32).toInt = 0 := by decide
    omega
  · show _ ≤ (99999#32 : BitVec 32).toInt
    have hz : (99999#32 : BitVec 32).toInt = 99999 := by decide
    omega

theorem rangeMask_one (u : IVec S1600000 32) (hu : InRange u) (e : Fin 1600000) : rangeMask u (ix1 e) = 1#1 := by
  unfold rangeMask
  rw [Host.reduce_eq_foldl]
  exact foldl_andi_ones _ _ fun n _ => rangeTest_one u hu n

/-- The take: the gather of the node result's rows at the wrapped ids, NaN where the wrapped id is out of range. -/
def takeRows (h2 : FVec Ideal S100000x64 .f32) (u : IVec S1600000 32) : FVec Ideal S1600000x64 .f32 :=
  select (broadcastInDim S1600000x64 ![0] bcast_S1600000_S1600000x64_0 (rangeMask u))
    (Host.gather gather_S100000x64_S1600000x1_S1600000x64_1_0_n_n_0_1_164 h2 (idCol (wrapped u)))
    (broadcastInDim S1600000x64 ![] bcast_S_S1600000x64 (constant (F := Ideal) S_ .f32 0x7FC00000#32))

/-- For source ids in range the take reads the source's row. -/
theorem takeRows_apply (h2 : FVec Ideal S100000x64 .f32) (u : IVec S1600000 32) (hu : InRange u) (e : Fin 1600000)
    (j : Fin 64) : takeRows h2 u (ix2 e j) = h2 (ix2 (sourceRow u e) j) := by
  unfold takeRows
  rw [select_apply,
    broadcastInDim_apply ![0] bcast_S1600000_S1600000x64_0 (rangeMask u) (ix2 e j) (ix1 e)
      (fun a => by match a with | ⟨0, _⟩ => rfl),
    rangeMask_one u hu e, select_one]
  have h := gather_rows (N := 100000) (D := 64) (n := 1600000) (w := 32)
    gather_S100000x64_S1600000x1_S1600000x64_1_0_n_n_0_1_164 rfl rfl rfl rfl rfl rfl h2 (idCol (wrapped u)) e j
    (by decide)
  rw [h]
  congr 2
  apply Fin.ext
  show min (idCol (wrapped u) (ixP e)).toInt.toNat (100000 - 1) = min (u (ix1 e)).toInt.toNat 99999
  rw [idCol_apply, wrapped_of_nonneg u e (hu e).1]

/-! ## The second layer's inputs and the results with the unit axis put back -/

/-- Two [1600000 × 64] arrays side by side. -/
def besideE (a b : FVec Ideal S1600000x64 .f32) : FVec Ideal S1600000x128 .f32 :=
  concatenate S1600000x128 1 [⟨S1600000x64, a⟩, ⟨S1600000x64, b⟩] concatenates_S1600000x64_S1600000x64_S1600000x128_d1

theorem besideE_left (a b : FVec Ideal S1600000x64 .f32) (e : Fin 1600000) (k : Fin 128) (h : k.val < 64) :
    besideE a b (ix2 e k) = a (ix2 e ⟨k.val, h⟩) := by
  unfold besideE
  exact concatenate_pair_apply_left (t := S1600000x128) (s₁ := S1600000x64) (s₂ := S1600000x64) 1 a b
    concatenates_S1600000x64_S1600000x64_S1600000x128_d1 (ix2 e k) rfl (ix2 e ⟨k.val, h⟩)
    (fun c => by match c with | ⟨0, _⟩ => rfl | ⟨1, _⟩ => rfl)

theorem besideE_right (a b : FVec Ideal S1600000x64 .f32) (e : Fin 1600000) (k : Fin 128) (h : ¬ k.val < 64) :
    besideE a b (ix2 e k) = b (ix2 e ⟨k.val - 64, by omega⟩) := by
  unfold besideE
  exact concatenate_pair_apply_right (t := S1600000x128) (s₁ := S1600000x64) (s₂ := S1600000x64) 1 a b
    concatenates_S1600000x64_S1600000x64_S1600000x128_d1 (ix2 e k) rfl rfl (ix2 e ⟨k.val - 64, by omega⟩)
    (fun c hc => by match c with | ⟨0, _⟩ => rfl | ⟨1, _⟩ => exact absurd rfl hc)
    (by show (k.val - 64) + 64 = k.val; omega)

/-- An edge's 128 inputs in the kernel program, for source ids in range: its source's result row beside its own row. -/
theorem edgeIn_eq (ef : FVec Ideal S1600000x1x64 .f32) (u v : IVec S1600000 32) (Wn : FVec Ideal S64x128 .f32)
    (bn : FVec Ideal S64 .f32) (hu : InRange u) (e : Fin 1600000) (k : Fin 128) :
    besideE (takeRows (nodes2 ef u v Wn bn) u) (rows2 ef) (ix2 e k) = edgeIn ef u v Wn bn e k := by
  unfold edgeIn
  by_cases h : k.val < 64
  · rw [dif_pos h, besideE_left _ _ _ _ h, takeRows_apply _ _ hu, nodes2_apply]
  · rw [dif_neg h, besideE_right _ _ _ _ h, rows2_apply]

/-- The edge result [1600000 × 64]: the linear layer of the take beside the edge rows. -/
def edges2 (ef : FVec Ideal S1600000x1x64 .f32) (u v : IVec S1600000 32) (Wn : FVec Ideal S64x128 .f32)
    (bn : FVec Ideal S64 .f32) (We : FVec Ideal S64x128 .f32) (be : FVec Ideal S64 .f32) : FVec Ideal S1600000x64 .f32 :=
  linear (R := 1600000) (besideE (takeRows (nodes2 ef u v Wn bn) u) (rows2 ef)) (weightsT We) (biasRow be)

theorem edges2_apply (ef : FVec Ideal S1600000x1x64 .f32) (u v : IVec S1600000 32) (Wn : FVec Ideal S64x128 .f32)
    (bn : FVec Ideal S64 .f32) (We : FVec Ideal S64x128 .f32) (be : FVec Ideal S64 .f32) (hu : InRange u)
    (e : Fin 1600000) (o : Fin 64) :
    edges2 ef u v Wn bn We be (ix2 e o) = edge ef u v Wn bn We be e o := by
  unfold edges2 linear edge
  simp only [ix2_0, ix2_1, biasRow_apply, edgeIn_eq _ _ _ _ _ hu, weightsT_apply]

/-- The node result with the unit middle axis put back. -/
def withUnitN (x : FVec Ideal S100000x64 .f32) : FVec Ideal S100000x1x64 .f32 :=
  shapeCast S100000x1x64 x shapeCasts_S100000x64_S100000x1x64

theorem withUnitN_apply (x : FVec Ideal S100000x64 .f32) (p : Fin 100000) (q : Fin 1) (r : Fin 64) :
    withUnitN x (ix3 p q r) = x (ix2 p r) := by
  unfold withUnitN
  refine shapeCast_apply x _ _ _ ?_
  rw [Shape.rowMajor_val_three, Shape.rowMajor_val_two]
  have h1 : q.val = 0 := by omega
  show p.val * 64 + r.val = (p.val * 1 + q.val) * 64 + r.val
  rw [h1]; omega

/-- The edge result with the unit middle axis put back. -/
def withUnitE (x : FVec Ideal S1600000x64 .f32) : FVec Ideal S1600000x1x64 .f32 :=
  shapeCast S1600000x1x64 x shapeCasts_S1600000x64_S1600000x1x64

theorem withUnitE_apply (x : FVec Ideal S1600000x64 .f32) (p : Fin 1600000) (q : Fin 1) (r : Fin 64) :
    withUnitE x (ix3 p q r) = x (ix2 p r) := by
  unfold withUnitE
  refine shapeCast_apply x _ _ _ ?_
  rw [Shape.rowMajor_val_three, Shape.rowMajor_val_two]
  have h1 : q.val = 0 := by omega
  show p.val * 64 + r.val = (p.val * 1 + q.val) * 64 + r.val
  rw [h1]; omega

/-- The kernel program's node result is the specification's. -/
theorem nodeOut_eq (ef : FVec Ideal S1600000x1x64 .f32) (u v : IVec S1600000 32) (Wn : FVec Ideal S64x128 .f32)
    (bn : FVec Ideal S64 .f32) : withUnitN (nodes2 ef u v Wn bn) = nodeOut ef u v Wn bn := by
  funext i
  obtain ⟨p, q, r, rfl⟩ : ∃ (p : Fin 100000) (q : Fin 1) (r : Fin 64), i = ix3 p q r := ⟨i 0, i 1, i 2, eq_ix3 i⟩
  rw [withUnitN_apply, nodes2_apply]
  rfl

/-- The kernel program's edge result is the specification's, for source ids in range. -/
theorem edgeOut_eq (ef : FVec Ideal S1600000x1x64 .f32) (u v : IVec S1600000 32) (Wn : FVec Ideal S64x128 .f32)
    (bn : FVec Ideal S64 .f32) (We : FVec Ideal S64x128 .f32) (be : FVec Ideal S64 .f32) (hu : InRange u) :
    withUnitE (edges2 ef u v Wn bn We be) = edgeOut ef u v Wn bn We be := by
  funext i
  obtain ⟨p, q, r, rfl⟩ : ∃ (p : Fin 1600000) (q : Fin 1) (r : Fin 64), i = ix3 p q r := ⟨i 0, i 1, i 2, eq_ix3 i⟩
  rw [withUnitE_apply, edges2_apply _ _ _ _ _ _ _ hu]
  rfl

end Cert.KernelIdeal.HostStages

end
-- ==== Proof.LibTypedRef.lean ====
/-
  Typed references: contents carried to a typed reference's buffer and read back at the value's type are the
  contents. The two transports are casts along one equation of buffer types and its inverse, so they cancel for any
  typed reference, whatever the equation's proof. Simplifying with this lemma removes every such pair from the
  composed term of a called function's operations without opening a single cast.
-/
import Idealize.ShloMosaic.Lib.StableHlo

namespace Idealize.ShloMosaic.StableHlo.TRef

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents read off a typed reference's buffer and carried back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Idealize.ShloMosaic.StableHlo.TRef
-- ==== Proof.KernelValue.lean ====
/-
  THE KERNEL PROGRAM'S TWO RESULTS AS FUNCTIONS OF ITS ARGUMENTS. The run goes through seven segments: the host
  operations before the first region, the first region, three stretches of host operations (the unit axis put back on
  the node result; the take of its rows at the source ids; the join with the edge rows, the second weights
  transposed and the second bias as a row), the second region, and the unit axis put back on the edge result. At
  each boundary a buffer holds what the last operation that wrote it left there and otherwise what it held before;
  a region's output array holds the linear layer of the three arrays the region found. Followed from the last
  boundary back to the launch, the node result is the specification's node result of the arguments, and for source
  ids in range the edge result is the specification's edge result.
-/
import proofs.«406166_j7241314861140_1_alg».proof.Proof.Gen.KernelIdeal.Frame
import proofs.«406166_j7241314861140_1_alg».proof.Proof.RegionValue
import proofs.«406166_j7241314861140_1_alg».proof.Proof.KernelHost
import proofs.«406166_j7241314861140_1_alg».proof.Proof.LibTypedRef
import Idealize.ShloMosaic.Lib.StableHlo.Run

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostStages
open Cert.MeanAggregate (nodeOut edgeOut InRange linear linearClamped)

variable (m : (ℓ : Loc nD τ sig) → Buf (Elt Ideal) ℓ) (ρ : Dev nD → PrngReg)

/-- A buffer none of a stretch's operations writes holds after the stretch what it held before. -/
local macro "host_untouched " ops:ident : tactic =>
  `(tactic| (refine StableHlo.after_of_forall_not_mem _ _ (List.forall_iff_forall_mem.mp ?_)
             simp only [$ops:ident, List.flatten_cons, List.flatten_nil, List.append_nil, List.cons_append, List.nil_append,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Each stretch of host operations, from any entry contents -/

section Stretches

variable (V : Valuation τ sig (Elt Ideal))

/-- Running one list of operations and then another is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

set_option maxRecDepth 8192 in
set_option maxHeartbeats 2000000 in
/-- The first stretch up to its join: the aggregate by v. -/
theorem head0_v12 :
    StableHlo.after (List.take 31 hostOps0) V (Proc.devRef .tc main_v12)
      = aggregate (rows2 (V (Proc.devRef .tc main_arg1))) (V (Proc.devRef .tc main_arg3)) := by
  simp only [hostOps0, List.take_succ_cons, List.take_zero]
  after_results_simp
  rfl

set_option maxRecDepth 8192 in
set_option maxHeartbeats 2000000 in
/-- The first stretch up to its join: the aggregate by u. -/
theorem head0_v23 :
    StableHlo.after (List.take 31 hostOps0) V (Proc.devRef .tc main_v23)
      = aggregate (rows2 (V (Proc.devRef .tc main_arg1))) (V (Proc.devRef .tc main_arg2)) := by
  simp only [hostOps0, List.take_succ_cons, List.take_zero]
  after_results_simp
  rfl

set_option maxRecDepth 8192 in
set_option maxHeartbeats 2000000 in
/-- The first stretch: the two aggregates side by side. -/
theorem ops0_v24 :
    StableHlo.after hostOps0 V (Proc.devRef .tc main_v24)
      = besideN (aggregate (rows2 (V (Proc.devRef .tc main_arg1))) (V (Proc.devRef .tc main_arg3)))
          (aggregate (rows2 (V (Proc.devRef .tc main_arg1))) (V (Proc.devRef .tc main_arg2))) := by
  have h12 := head0_v12 V
  have h23 := head0_v23 V
  rw [← List.take_append_drop 31 (hostOps0 (F := Ideal)), after_append]
  generalize StableHlo.after (List.take 31 (hostOps0 (F := Ideal))) V = V' at h12 h23 ⊢
  simp only [hostOps0, List.drop_succ_cons, List.drop_zero]
  after_results_simp
  rw [h12, h23]
  rfl

set_option maxRecDepth 8192 in
set_option maxHeartbeats 2000000 in
theorem ops0_v25 :
    StableHlo.after hostOps0 V (Proc.devRef .tc main_v25) = weightsT (V (Proc.devRef .tc main_arg4)) := by
  dsimp only [hostOps0]
  after_results_simp
  rfl

set_option maxRecDepth 8192 in
set_option maxHeartbeats 2000000 in
theorem ops0_v26 :
    StableHlo.after hostOps0 V (Proc.devRef .tc main_v26) = biasRow (V (Proc.devRef .tc main_arg5)) := by
  dsimp only [hostOps0]
  after_results_simp
  rfl

set_option maxRecDepth 8192 in
set_option maxHeartbeats 2000000 in
theorem ops0_v0 :
    StableHlo.after hostOps0 V (Proc.devRef .tc main_v0) = rows2 (V (Proc.devRef .tc main_arg1)) := by
  dsimp only [hostOps0]
  after_results_simp
  rfl

set_option maxRecDepth 8192 in
set_option maxHeartbeats 2000000 in
/-- The take's stretch: the take of the node result's rows at the source ids. -/
theorem ops1_1_v29 :
    StableHlo.after hostOps1_1 V (Proc.devRef .tc main_v29)
      = takeRows (V (Proc.devRef .tc main_v27)) (V (Proc.devRef .tc main_arg2)) := by
  dsimp only [hostOps1_1]
  after_results_simp
  simp only [TRef.ofBuf_toBuf]
  simp only [TRef.toBuf, TRef.ofBuf, cast_eq]
  unfold takeRows rangeMask idCol wrapped
  rfl

/-- The stretch before the second region: the take beside the edge rows. -/
theorem ops1_2_v30 :
    StableHlo.after hostOps1_2 V (Proc.devRef .tc main_v30)
      = besideE (V (Proc.devRef .tc main_v29)) (V (Proc.devRef .tc main_v0)) := by
  dsimp only [hostOps1_2]
  after_results_simp
  rfl

theorem ops1_2_v31 :
    StableHlo.after hostOps1_2 V (Proc.devRef .tc main_v31) = weightsT (V (Proc.devRef .tc main_arg6)) := by
  dsimp only [hostOps1_2]
  after_results_simp
  rfl

theorem ops1_2_v32 :
    StableHlo.after hostOps1_2 V (Proc.devRef .tc main_v32) = biasRow (V (Proc.devRef .tc main_arg7)) := by
  dsimp only [hostOps1_2]
  after_results_simp
  rfl

end Stretches

/-! ## Before the first region -/

theorem W1_v24 (c : Dev nD) :
    W1 m ρ c (Proc.devRef .tc main_v24)
      = besideN (aggregate (rows2 (W0 m ρ c (Proc.devRef .tc main_arg1))) (W0 m ρ c (Proc.devRef .tc main_arg3)))
          (aggregate (rows2 (W0 m ρ c (Proc.devRef .tc main_arg1))) (W0 m ρ c (Proc.devRef .tc main_arg2))) :=
  ops0_v24 (W0 m ρ c)

theorem W1_v25 (c : Dev nD) :
    W1 m ρ c (Proc.devRef .tc main_v25) = weightsT (W0 m ρ c (Proc.devRef .tc main_arg4)) :=
  ops0_v25 (W0 m ρ c)

theorem W1_v26 (c : Dev nD) :
    W1 m ρ c (Proc.devRef .tc main_v26) = biasRow (W0 m ρ c (Proc.devRef .tc main_arg5)) :=
  ops0_v26 (W0 m ρ c)

theorem W1_v0 (c : Dev nD) :
    W1 m ρ c (Proc.devRef .tc main_v0) = rows2 (W0 m ρ c (Proc.devRef .tc main_arg1)) :=
  ops0_v0 (W0 m ρ c)

theorem W1_arg2 (c : Dev nD) : W1 m ρ c (Proc.devRef .tc main_arg2) = W0 m ρ c (Proc.devRef .tc main_arg2) := by
  host_untouched hostOps0
theorem W1_arg6 (c : Dev nD) : W1 m ρ c (Proc.devRef .tc main_arg6) = W0 m ρ c (Proc.devRef .tc main_arg6) := by
  host_untouched hostOps0
theorem W1_arg7 (c : Dev nD) : W1 m ρ c (Proc.devRef .tc main_arg7) = W0 m ρ c (Proc.devRef .tc main_arg7) := by
  host_untouched hostOps0

/-! ## The first region -/

theorem W2_v27 (c : Dev nD) :
    W2 m ρ c (Proc.devRef .tc main_v27)
      = nodes2 (W0 m ρ c (Proc.devRef .tc main_arg1)) (W0 m ρ c (Proc.devRef .tc main_arg2))
          (W0 m ρ c (Proc.devRef .tc main_arg3)) (W0 m ρ c (Proc.devRef .tc main_arg4))
          (W0 m ρ c (Proc.devRef .tc main_arg5)) := by
  refine ((W2_arr m ρ c 3).trans (RegionValue.final0 (V1 m ρ) c)).trans ?_
  show linearClamped (R := 100000) (W1 m ρ c (Proc.devRef .tc main_v24)) (W1 m ρ c (Proc.devRef .tc main_v25))
    (W1 m ρ c (Proc.devRef .tc main_v26)) = _
  rw [W1_v24, W1_v25, W1_v26]
  rfl

theorem W2_v0 (c : Dev nD) : W2 m ρ c (Proc.devRef .tc main_v0) = W1 m ρ c (Proc.devRef .tc main_v0) :=
  W2_of_ne m ρ c main_v0 (by decide)
theorem W2_arg2 (c : Dev nD) : W2 m ρ c (Proc.devRef .tc main_arg2) = W1 m ρ c (Proc.devRef .tc main_arg2) :=
  W2_of_ne m ρ c main_arg2 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)

/-! ## Between the regions -/

theorem W3_v28 (c : Dev nD) :
    W3 m ρ c (Proc.devRef .tc main_v28) = withUnitN (W2 m ρ c (Proc.devRef .tc main_v27)) := by
  dsimp only [W3, hostOps1]
  after_results_simp
  rfl

theorem W3_v27 (c : Dev nD) : W3 m ρ c (Proc.devRef .tc main_v27) = W2 m ρ c (Proc.devRef .tc main_v27) := by
  host_untouched hostOps1
theorem W3_v0 (c : Dev nD) : W3 m ρ c (Proc.devRef .tc main_v0) = W2 m ρ c (Proc.devRef .tc main_v0) := by
  host_untouched hostOps1
theorem W3_arg2 (c : Dev nD) : W3 m ρ c (Proc.devRef .tc main_arg2) = W2 m ρ c (Proc.devRef .tc main_arg2) := by
  host_untouched hostOps1
theorem W3_arg6 (c : Dev nD) : W3 m ρ c (Proc.devRef .tc main_arg6) = W2 m ρ c (Proc.devRef .tc main_arg6) := by
  host_untouched hostOps1
theorem W3_arg7 (c : Dev nD) : W3 m ρ c (Proc.devRef .tc main_arg7) = W2 m ρ c (Proc.devRef .tc main_arg7) := by
  host_untouched hostOps1

theorem W4_v29 (c : Dev nD) :
    W4 m ρ c (Proc.devRef .tc main_v29)
      = takeRows (W3 m ρ c (Proc.devRef .tc main_v27)) (W3 m ρ c (Proc.devRef .tc main_arg2)) :=
  ops1_1_v29 (W3 m ρ c)

theorem W4_v28 (c : Dev nD) : W4 m ρ c (Proc.devRef .tc main_v28) = W3 m ρ c (Proc.devRef .tc main_v28) := by
  host_untouched hostOps1_1
theorem W4_v0 (c : Dev nD) : W4 m ρ c (Proc.devRef .tc main_v0) = W3 m ρ c (Proc.devRef .tc main_v0) := by
  host_untouched hostOps1_1
theorem W4_arg6 (c : Dev nD) : W4 m ρ c (Proc.devRef .tc main_arg6) = W3 m ρ c (Proc.devRef .tc main_arg6) := by
  host_untouched hostOps1_1
theorem W4_arg7 (c : Dev nD) : W4 m ρ c (Proc.devRef .tc main_arg7) = W3 m ρ c (Proc.devRef .tc main_arg7) := by
  host_untouched hostOps1_1

theorem W5_v30 (c : Dev nD) :
    W5 m ρ c (Proc.devRef .tc main_v30)
      = besideE (W4 m ρ c (Proc.devRef .tc main_v29)) (W4 m ρ c (Proc.devRef .tc main_v0)) :=
  ops1_2_v30 (W4 m ρ c)
theorem W5_v31 (c : Dev nD) :
    W5 m ρ c (Proc.devRef .tc main_v31) = weightsT (W4 m ρ c (Proc.devRef .tc main_arg6)) :=
  ops1_2_v31 (W4 m ρ c)
theorem W5_v32 (c : Dev nD) :
    W5 m ρ c (Proc.devRef .tc main_v32) = biasRow (W4 m ρ c (Proc.devRef .tc main_arg7)) :=
  ops1_2_v32 (W4 m ρ c)
theorem W5_v28 (c : Dev nD) : W5 m ρ c (Proc.devRef .tc main_v28) = W4 m ρ c (Proc.devRef .tc main_v28) := by
  host_untouched hostOps1_2

/-! ## The second region and the last stretch -/

theorem W6_v33 (c : Dev nD) :
    W6 m ρ c (Proc.devRef .tc main_v33)
      = linear (R := 1600000) (W5 m ρ c (Proc.devRef .tc main_v30)) (W5 m ρ c (Proc.devRef .tc main_v31))
          (W5 m ρ c (Proc.devRef .tc main_v32)) :=
  (W6_arr m ρ c 3).trans (RegionValue.final1 (V5 m ρ) c)

theorem W6_v28 (c : Dev nD) : W6 m ρ c (Proc.devRef .tc main_v28) = W5 m ρ c (Proc.devRef .tc main_v28) :=
  W6_of_ne m ρ c main_v28 (by decide)

theorem W7_v34 (c : Dev nD) :
    W7 m ρ c (Proc.devRef .tc main_v34) = withUnitE (W6 m ρ c (Proc.devRef .tc main_v33)) := by
  dsimp only [W7, hostOps2]
  after_results_simp
  rfl
theorem W7_v28 (c : Dev nD) : W7 m ρ c (Proc.devRef .tc main_v28) = W6 m ρ c (Proc.devRef .tc main_v28) := by
  host_untouched hostOps2

/-! ## The two results -/

/-- The node result buffer at the end of the run is the specification's node result of the launch arguments. -/
theorem node_result (c : Dev nD) :
    W7 m ρ c (Proc.devRef .tc main_v28)
      = nodeOut (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) := by
  rw [W7_v28, W6_v28, W5_v28, W4_v28, W3_v28, W2_v27, nodeOut_eq]

/-- The edge result buffer at the end of the run is the specification's edge result of the launch arguments, for
    source ids in range. -/
theorem edge_result (c : Dev nD) (hu : InRange (m ((c.tc : Thread nD τ).loc main_arg2))) :
    W7 m ρ c (Proc.devRef .tc main_v34)
      = edgeOut (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) := by
  rw [W7_v34, W6_v33, W5_v30, W5_v31, W5_v32, W4_v29, W4_v0, W4_arg6, W4_arg7, W3_v27, W3_arg2, W3_v0, W3_arg6,
    W3_arg7, W2_v27, W2_arg2, W2_v0, W2_arg6, W2_arg7, W1_v0, W1_arg2, W1_arg6, W1_arg7]
  exact edgeOut_eq (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) hu

end Cert.KernelIdeal.KernelValue

end
-- ==== Proof.LibRows3.lean ====
/-
  ROWS READ AND ROWS SUMMED, FOR ARRAYS WITH A UNIT MIDDLE AXIS. The rank-3 siblings of the row take and the row
  scatter-add: the operand is [N × 1 × D], the start indices an [n × 1] column of row numbers, operand axis 0
  collapsed (inserted, for the scatter) and start-indexed, the other two axes whole. A gather reads at result
  (e, 0, j) the operand's (r, 0, j), r the start index of row e read signed and clamped into the operand; a float
  scatter-add adds to operand (i, 0, j) column j of every update row whose start index reads signed as i.
-/
import proofs.«406166_j7241314861140_1_alg».proof.Proof.LibGatherScatter

open scoped BigOperators

namespace Idealize.ShloMosaic.RowOps

open Idealize.ShloMosaic Idealize.ShloMosaic.ValueIdx Idealize.ShloMosaic.StableHlo.Predicate

/-- Every element of a one-element list is that element. -/
private theorem getElem_of_eq_singleton {β : Type} {l : List β} {b : β} (h : l = [b]) (k : Nat) (hk : k < l.length) :
    l[k] = b :=
  List.mem_singleton.1 (h ▸ List.getElem_mem hk)

/-- The entry of a two-element list at position 0 is its first element. -/
private theorem getElem_pair_zero {β : Type} {l : List β} {b c : β} (h : l = [b, c]) (k : Nat) (hk : k < l.length)
    (hk0 : k = 0) : l[k] = b := by
  subst h; subst hk0; rfl

/-- The entry of a two-element list at position 1 is its second element. -/
private theorem getElem_pair_one {β : Type} {l : List β} {b c : β} (h : l = [b, c]) (k : Nat) (hk : k < l.length)
    (hk1 : k = 1) : l[k] = c := by
  subst h; subst hk1; rfl

/-- Of three axes, the ones outside [0] are 1 and 2. -/
private theorem kept3_zero : (List.finRange 3).filter (fun a : Fin 3 => a ∉ [(0 : Fin 3)]) = [1, 2] := by decide

/-- Of three axes, the one outside [1, 2] is 0. -/
private theorem kept3_one_two : (List.finRange 3).filter (fun a : Fin 3 => a ∉ [(1 : Fin 3), 2]) = [0] := by decide

/-- Axis 0 is not among the axes 1 and 2. -/
private theorem zero_notMem_one_two : (0 : Fin 3) ∉ [(1 : Fin 3), 2] := by decide
/-- Axis 1 is among the axes 1 and 2. -/
private theorem one_mem_one_two : (1 : Fin 3) ∈ [(1 : Fin 3), 2] := by decide
/-- Axis 2 is among the axes 1 and 2. -/
private theorem two_mem_one_two : (2 : Fin 3) ∈ [(1 : Fin 3), 2] := by decide
/-- Axis 1 is not axis 0. -/
private theorem one_notMem_zero : (1 : Fin 3) ∉ [(0 : Fin 3)] := by decide
/-- Axis 2 is not axis 0. -/
private theorem two_notMem_zero : (2 : Fin 3) ∉ [(0 : Fin 3)] := by decide
/-- Axis 1 is the first of the axes 1 and 2. -/
private theorem idxOf_one_one_two : List.idxOf (1 : Fin 3) [(1 : Fin 3), 2] = 0 := by decide
/-- Axis 2 is the second of the axes 1 and 2. -/
private theorem idxOf_two_one_two : List.idxOf (2 : Fin 3) [(1 : Fin 3), 2] = 1 := by decide

/-- THE ROW TAKE over [N × 1 × D]. -/
theorem gather_rows3 {α : Type} {N D n w : Nat} (d : GatherDims ⟨3, ![N, 1, D]⟩ ⟨2, ![n, 1]⟩ ⟨3, ![n, 1, D]⟩)
    (hoff : d.offsetDims = [1, 2]) (hcoll : d.collapsedSliceDims = [0]) (hob : d.operandBatchingDims = [])
    (hsim : d.startIndexMap = [0]) (hivd : d.indexVectorDim = 1) (hss : d.sliceSizes = ![1, 1, D])
    (x : (⟨3, ![N, 1, D]⟩ : Shape).Idx → α) (idx : IVec ⟨2, ![n, 1]⟩ w) (e : Fin n) (j : Fin D) (hN : 0 < N) :
    Host.gather d x idx (ix3 e 0 j) = x (ix3 (clampRow N hN idx e) 0 j) := by
  have hb : ∀ a : Fin 3, a ∉ d.operandBatchingDims := fun a => by rw [hob]; exact List.not_mem_nil
  -- the result's batch axes: the one axis that is not an offset axis
  have hbd : d.batchDims = [0] := by
    show Shape.kept _ d.offsetDims = [0]
    rw [hoff]
    exact kept3_one_two
  -- the operand's kept axes: the two that are not collapsed
  have hsk : d.sKept = [1, 2] := by
    show Shape.kept _ (d.collapsedSliceDims ++ d.operandBatchingDims) = [1, 2]
    rw [hcoll, hob]
    exact kept3_zero
  -- axis 0: collapsed and start-indexed, the clamped start alone
  have h0 : (d.operandIdx (ix3 e 0 j) idx (0 : Fin 3)).val = (clampRow N hN idx e).val := by
    have hk : (0 : Fin 3) ∉ d.sKept := by rw [hsk]; exact zero_notMem_one_two
    have hm : (0 : Fin 3) ∈ d.startIndexMap := by rw [hsim]; exact List.mem_singleton.mpr rfl
    have hsl : d.sliceSizes 0 = 1 := by rw [hss]; rfl
    show d.start (ix3 e 0 j) idx 0 + d.batchCoord (ix3 e 0 j) 0 + d.offCoord (ix3 e 0 j) 0
      = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 3, X = 0 → ((ix3 e 0 j : (⟨3, ![n, 1, D]⟩ : Shape).Idx) X).val = e.val :=
        fun X hX => by subst hX; rfl
      exact he _ (getElem_of_eq_singleton hbd _ _)
    | ⟨1, _⟩ =>
      unfold GatherDims.siIdx
      rw [dif_pos (by rw [hivd])]
      apply Fin.ext
      show List.idxOf (0 : Fin 3) d.startIndexMap = 0
      rw [hsim]; simp
  -- axis 2: neither start-indexed nor collapsed, the second offset coordinate alone
  have h2 : (d.operandIdx (ix3 e 0 j) idx (2 : Fin 3)).val = j.val := by
    have hk : (2 : Fin 3) ∈ d.sKept := by rw [hsk]; exact two_mem_one_two
    have hm : (2 : Fin 3) ∉ d.startIndexMap := by rw [hsim]; exact two_notMem_zero
    show d.start (ix3 e 0 j) idx 2 + d.batchCoord (ix3 e 0 j) 2 + d.offCoord (ix3 e 0 j) 2 = j.val
    rw [GatherDims.batchCoord_eq_zero _ _ _ (hb 2), Nat.add_zero]
    unfold GatherDims.start GatherDims.offCoord
    rw [dif_neg hm, dif_pos hk, Nat.zero_add]
    have hpos : d.sKept.idxOf (2 : Fin 3) = 1 := by rw [hsk]; exact idxOf_two_one_two
    have hj : ∀ X : Fin 3, X = 2 → ((ix3 e 0 j : (⟨3, ![n, 1, D]⟩ : Shape).Idx) X).val = j.val :=
      fun X hX => by subst hX; rfl
    exact hj _ (getElem_pair_one hoff _ _ hpos)
  unfold Host.gather
  congr 1
  funext a
  match a with
  | ⟨0, _⟩ => exact Fin.ext h0
  | ⟨1, _⟩ =>
    -- axis 1 has one coordinate
    show (_ : Fin 1) = _
    exact Subsingleton.elim _ _
  | ⟨2, _⟩ => exact Fin.ext h2

/-- Rank 3 with a unit middle axis, [n × 1] indices, operand axis 0 inserted and scattered to, update axes 1 and 2 the
    window: update index `u` lands on operand element (i, 0, j) exactly when the start index of row `u 0` reads signed
    as `i` and `u`'s last coordinate is `j` (the middle coordinates are both 0, the axis having one position). -/
private theorem resultIdx?_rows3_iff {K D n w : Nat} (d : ScatterDims ⟨3, ![K, 1, D]⟩ ⟨2, ![n, 1]⟩ ⟨3, ![n, 1, D]⟩)
    (huw : d.updateWindowDims = [1, 2]) (hiw : d.insertedWindowDims = [0]) (hsd : d.scatterDimsToOperandDims = [0])
    (hivd : d.indexVectorDim = 1) (idx : IVec ⟨2, ![n, 1]⟩ w) (u : (⟨3, ![n, 1, D]⟩ : Shape).Idx) (i : Fin K)
    (j : Fin D) :
    d.resultIdx? u idx = some (ix3 i 0 j) ↔ lands idx (u 0 : Fin n) i.val ∧ (u 2 : Fin D) = j := by
  -- the updates' scatter axes: the one axis that is not a window axis
  have hus : d.uScatter = [0] := by
    show Shape.kept _ d.updateWindowDims = [0]
    rw [huw]
    exact kept3_one_two
  -- the operand's kept axes: the two that are not inserted
  have hsk : d.sKept = [1, 2] := by
    show Shape.kept _ d.insertedWindowDims = [1, 2]
    rw [hiw]
    exact kept3_zero
  -- axis 0: the start is the signed word of row `u 0`, the window coordinate 0
  have hs0 : d.start u idx (0 : Fin 3) = (idx (ixP (u 0 : Fin n))).toInt := by
    have hm : (0 : Fin 3) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 3, X = 0 → (u X).val = (u 0).val := fun X hX => by subst hX; rfl
      exact he _ (getElem_of_eq_singleton hus _ _)
    | ⟨1, _⟩ =>
      unfold ScatterDims.siIdx
      rw [dif_pos (by rw [hivd])]
      apply Fin.ext
      show List.idxOf (0 : Fin 3) d.scatterDimsToOperandDims = 0
      rw [hsd]; simp
  have hw0 : d.window u (0 : Fin 3) = 0 := by
    unfold ScatterDims.window
    rw [dif_neg (by rw [hsk]; exact zero_notMem_one_two)]
  -- axis 1: no start, the window coordinate `u`'s middle coordinate, which is 0
  have hs1 : d.start u idx (1 : Fin 3) = 0 := by
    unfold ScatterDims.start
    rw [dif_neg (by rw [hsd]; exact one_notMem_zero)]
  have hw1 : d.window u (1 : Fin 3) = 0 := by
    unfold ScatterDims.window
    rw [dif_pos (by rw [hsk]; exact one_mem_one_two)]
    have hpos : d.sKept.idxOf (1 : Fin 3) = 0 := by rw [hsk]; exact idxOf_one_one_two
    have he : ∀ X : Fin 3, X = 1 → (u X).val = 0 := fun X hX => by
      subst hX
      exact Fin.val_eq_zero (u 1 : Fin 1)
    exact he _ (getElem_pair_zero huw _ _ hpos)
  -- axis 2: no start, the window coordinate `u`'s last coordinate
  have hs2 : d.start u idx (2 : Fin 3) = 0 := by
    unfold ScatterDims.start
    rw [dif_neg (by rw [hsd]; exact two_notMem_zero)]
  have hw2 : d.window u (2 : Fin 3) = (u 2).val := by
    unfold ScatterDims.window
    rw [dif_pos (by rw [hsk]; exact two_mem_one_two)]
    have hpos : d.sKept.idxOf (2 : Fin 3) = 1 := by rw [hsk]; exact idxOf_two_one_two
    have he : ∀ X : Fin 3, X = 2 → (u X).val = (u 2).val := fun X hX => by subst hX; rfl
    exact he _ (getElem_pair_one huw _ _ hpos)
  rw [resultIdx?_eq_some_iff]
  constructor
  · intro h
    have h0 := h 0
    have h2 := h 2
    rw [hs0, hw0] at h0
    rw [hs2, hw2] at h2
    refine ⟨?_, ?_⟩
    · show (idx (ixP (u 0 : Fin n))).toInt = (i.val : Int)
      have : ((ix3 i 0 j : (⟨3, ![K, 1, D]⟩ : Shape).Idx) 0).val = i.val := rfl
      rw [this] at h0
      simpa using h0
    · apply Fin.ext
      have : ((ix3 i 0 j : (⟨3, ![K, 1, D]⟩ : Shape).Idx) 2).val = j.val := rfl
      rw [this] at h2
      have h2' : ((u 2).val : Int) = (j.val : Int) := by simpa using h2
      exact_mod_cast h2'
  · rintro ⟨hl, hj⟩ a
    match a with
    | ⟨0, _⟩ =>
      show d.start u idx (0 : Fin 3) + (d.window u (0 : Fin 3) : Int) = (i.val : Int)
      rw [hs0, hw0]
      unfold lands at hl
      rw [hl]; simp
    | ⟨1, _⟩ =>
      show d.start u idx (1 : Fin 3) + (d.window u (1 : Fin 3) : Int) = ((0 : Fin 1).val : Int)
      rw [hs1, hw1]; simp
    | ⟨2, _⟩ =>
      show d.start u idx (2 : Fin 3) + (d.window u (2 : Fin 3) : Int) = (j.val : Int)
      rw [hs2, hw2, ← hj]; simp

/-- THE ROW SCATTER-ADD over [K × 1 × D]. -/
theorem scatterAdd_rows3 {K D n w : Nat} (d : ScatterDims ⟨3, ![K, 1, D]⟩ ⟨2, ![n, 1]⟩ ⟨3, ![n, 1, D]⟩)
    (huw : d.updateWindowDims = [1, 2]) (hiw : d.insertedWindowDims = [0]) (hsd : d.scatterDimsToOperandDims = [0])
    (hivd : d.indexVectorDim = 1)
    (x : (⟨3, ![K, 1, D]⟩ : Shape).Idx → EReal) (idx : IVec ⟨2, ![n, 1]⟩ w)
    (upd : (⟨3, ![n, 1, D]⟩ : Shape).Idx → EReal) (i : Fin K) (j : Fin D) :
    Ideal.hostScatterAdd d x idx upd (ix3 i 0 j)
      = x (ix3 i 0 j) + ∑ e ∈ Finset.univ.filter (fun e : Fin n => lands idx e i.val), upd (ix3 e 0 j) := by
  have hiff := resultIdx?_rows3_iff d huw hiw hsd hivd idx
  unfold Ideal.hostScatterAdd
  congr 1
  -- an update index whose last coordinate is `j` is (its row, 0, j): its middle coordinate can only be 0
  have hback : ∀ u : (⟨3, ![n, 1, D]⟩ : Shape).Idx, (u 2 : Fin D) = j → ix3 (u 0 : Fin n) 0 j = u := fun u hu => by
    funext a
    match a with
    | ⟨0, _⟩ => rfl
    | ⟨1, _⟩ =>
      show (_ : Fin 1) = _
      exact Subsingleton.elim _ _
    | ⟨2, _⟩ => exact hu.symm
  refine Finset.sum_bij' (fun u _ => (u 0 : Fin n)) (fun e _ => ix3 e 0 j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix3 e 0 j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

end Idealize.ShloMosaic.RowOps
-- ==== Proof.RefValue.lean ====
/-
  THE REFERENCE COMPUTES THE SPECIFICATION. Its two results, read one host operation at a time, are the node result
  and the edge result of the specification: the scatter-adds are the sums over incident edges, the joins pick the
  aggregate by v or by u (the source's result row or the edge's own row) by the column, the contractions are the
  sums over the 128 columns, and the gather reads the source's row (for ids in range the wrap of negative ids
  does nothing and the clamp is the id).
-/
import proofs.«406166_j7241314861140_1_alg».proof.Proof.Gen.ReferenceIdeal.Run
import proofs.«406166_j7241314861140_1_alg».proof.Proof.Gen.ReferenceIdeal.Read
import proofs.«406166_j7241314861140_1_alg».proof.Proof.LibRows3
import proofs.«406166_j7241314861140_1_alg».proof.Proof.Spec

noncomputable section

namespace Cert.ReferenceIdeal.RefValue

open Idealize.ShloMosaic Idealize.ShloMosaic.ValueIdx Cert.ReferenceIdeal Cert.ReferenceIdeal.Gen
open Cert.MeanAggregate (EdgeFeats NodeIds Weights Bias nodeOut edgeOut InRange)
open Cert.MeanAggregate (zero one incident segSum degree segMean nodeIn node sourceRow edgeIn edge)
open Idealize.ShloMosaic.RowOps (lands clampRow scatterAdd_rows3 scatterAdd_row1 gather_rows3)
open Idealize.ShloMosaic.StableHlo.Predicate (ixP)
open scoped BigOperators

/-- The column of ids at row `e` is the id of edge `e`. -/
private theorem col_apply (ids : NodeIds) (e : Fin 1600000) :
    Read.val_main_v1 (F := Ideal) ids (ixP e) = ids (ix1 e) := by
  rw [Read.val_main_v1_apply]
  congr 1
  funext a
  match a with
  | ⟨0, _⟩ => rfl

/-- The update rows that land on node `i` are the edges incident to `i`. -/
private theorem lands_filter (ids : NodeIds) (i : Fin 100000) :
    Finset.univ.filter (fun e : Fin 1600000 => lands (Read.val_main_v1 (F := Ideal) ids) e i.val)
      = incident ids i := by
  unfold incident
  apply Finset.filter_congr
  intro e _
  unfold lands
  rw [col_apply]

/-- At the extended reals the host's scatter-add is the sum form. -/
private theorem host_scatterAdd_ideal {s si su : Shape} (d : ScatterDims s si su) {w : Nat} (x : s.Idx → EReal)
    (idx : IVec si w) (upd : su.Idx → EReal) :
    Host.scatterAdd (F := Ideal) (φ := .f32) d x idx upd = Ideal.hostScatterAdd d x idx upd := rfl

/-- The column of ids the count scatters at is the column the rows are scattered at. -/
private theorem v5_eq (ids : NodeIds) :
    Read.val_main_v5 (F := Ideal) ids = Read.val_main_v1 (F := Ideal) ids := rfl

/-- The scatter-add of ones counts the incident edges. -/
private theorem count_stage (ids : NodeIds) (i : Fin 100000) :
    Read.val_main_v6 (F := Ideal) ids (ix1 i) = degree ids i := by
  unfold Read.val_main_v6
  rw [host_scatterAdd_ideal]
  have h := scatterAdd_row1 (K := 100000) (n := 1600000) (w := 32)
    scatter_S100000_S1600000x1_S1600000_n_0_0_1 rfl rfl rfl rfl
    (Read.val_main_v4 (F := Ideal)) (Read.val_main_v5 (F := Ideal) ids) (Read.val_main_v3 (F := Ideal)) i
  have hz : Read.val_main_v4 (F := Ideal) (ix1 i) = zero := by
    rw [Read.val_main_v4_apply, Read.val_main_cst_1_apply]; rfl
  have ho : ∀ e : Fin 1600000, Read.val_main_v3 (F := Ideal) (ix1 e) = one := fun e => by
    rw [Read.val_main_v3_apply, Read.val_main_cst_0_apply]; rfl
  rw [h, hz, v5_eq, lands_filter]
  unfold degree
  simp only [ho]

/-- The degree stage: the count, at least one. -/
private theorem degree_stage (ids : NodeIds) (i : Fin 100000) :
    Read.val_main_v8 (F := Ideal) ids (ix1 i) = max (degree ids i) one := by
  rw [Read.val_main_v8_apply, count_stage, Read.val_main_v7_apply, Read.val_main_cst_2_apply]
  rfl

/-- The degree stage spread along the unit axis and the 64 columns reads the degree stage at the node. -/
private theorem v10_apply (ids : NodeIds) (i : Fin 100000) (q : Fin 1) (j : Fin 64) :
    Read.val_main_v10 (F := Ideal) ids (ix3 i q j) = Read.val_main_v8 (F := Ideal) ids (ix1 i) := by
  rw [Read.val_main_v10_apply, Read.val_main_v9_apply]
  congr 1
  funext a
  match a with
  | ⟨0, _⟩ => rfl

/-- The scatter-add of the edge rows is the sum over the incident edges. -/
private theorem sum_stage (ef : EdgeFeats) (ids : NodeIds) (i : Fin 100000) (j : Fin 64) :
    Read.val_main_v2 (F := Ideal) ef ids (ix3 i 0 j) = segSum ef ids i j := by
  unfold Read.val_main_v2
  rw [host_scatterAdd_ideal]
  have h := scatterAdd_rows3 (K := 100000) (D := 64) (n := 1600000) (w := 32)
    scatter_S100000x1x64_S1600000x1_S1600000x1x64_12_0_0_1 rfl rfl rfl rfl
    (Read.val_main_v0 (F := Ideal)) (Read.val_main_v1 (F := Ideal) ids) ef i j
  have hz : Read.val_main_v0 (F := Ideal) (ix3 i 0 j) = zero := by
    rw [Read.val_main_v0_apply, Read.val_main_cst_apply]; rfl
  rw [h, hz, lands_filter]
  rfl

/-- The aggregate stage: the sum over the degree, at least one. -/
private theorem mean_stage (ef : EdgeFeats) (ids : NodeIds) (i : Fin 100000) (j : Fin 64) :
    Read.val_main_v11 (F := Ideal) ef ids (ix3 i 0 j) = segMean ef ids i j := by
  rw [Read.val_main_v11_apply, sum_stage, v10_apply, degree_stage]
  rfl

/-- The second aggregate is the same four operations at the other ids. -/
private theorem v23_eq (ef : EdgeFeats) (ids : NodeIds) :
    Read.val_main_v23 (F := Ideal) ef ids = Read.val_main_v11 (F := Ideal) ef ids := rfl

/-- The join of the two aggregates along the columns: the aggregate by v below column 64, by u from there on. -/
private theorem nodeIn_stage (ef : EdgeFeats) (u v : NodeIds) (i : Fin 100000) (k : Fin 128) :
    Read.val_main_v24 (F := Ideal) ef u v (ix3 i 0 k) = nodeIn ef u v i k := by
  unfold Read.val_main_v24 nodeIn
  by_cases h : k.val < 64
  · rw [dif_pos h, ← mean_stage]
    exact concatenate_pair_apply_left (t := S100000x1x128) (s₁ := S100000x1x64) (s₂ := S100000x1x64) 2 _ _ _
      (ix3 i 0 k) rfl (ix3 i 0 ⟨k.val, h⟩)
      (fun b => by match b with | ⟨0, _⟩ => rfl | ⟨1, _⟩ => rfl | ⟨2, _⟩ => rfl)
  · rw [dif_neg h, ← mean_stage, ← v23_eq]
    exact concatenate_pair_apply_right (t := S100000x1x128) (s₁ := S100000x1x64) (s₂ := S100000x1x64) 2 _ _ _
      (ix3 i 0 k) rfl rfl (ix3 i 0 ⟨k.val - 64, by omega⟩)
      (fun b hb => by match b with | ⟨0, _⟩ => rfl | ⟨1, _⟩ => rfl | ⟨2, _⟩ => exact absurd rfl hb)
      (by show (k.val - 64) + 64 = k.val; omega)

/-- The first linear layer and the clamp at zero from below: the node result at a node and a column. -/
private theorem node_stage (ef : EdgeFeats) (u v : NodeIds) (Wn : Weights) (bn : Bias) (i : Fin 100000) (q : Fin 1)
    (o : Fin 64) :
    Read.val_main_v29 (F := Ideal) ef u v Wn bn (ix3 i q o) = node ef u v Wn bn i o := by
  have hq : q = 0 := Subsingleton.elim _ _
  subst hq
  have el : ∀ k : Fin 128, Read.lidx_main_v25 (ix3 i (0 : Fin 1) o) k = ix3 i 0 k := fun k => funext fun a => by
    match a with
    | ⟨0, _⟩ => rfl
    | ⟨1, _⟩ => rfl
    | ⟨2, _⟩ => rfl
  have er : ∀ k : Fin 128, Read.ridx_main_v25 (ix3 i (0 : Fin 1) o) k = ix2 o k := fun k => funext fun a => by
    match a with
    | ⟨0, _⟩ => rfl
    | ⟨1, _⟩ => rfl
  have eb : Read.idx_main_v26 (Read.idx_main_v27 (ix3 i (0 : Fin 1) o)) = ix1 o := funext fun a => by
    match a with
    | ⟨0, _⟩ => rfl
  rw [Read.val_main_v29_apply, Read.val_main_v28_apply, Read.val_main_v25_apply, Read.val_main_v27_apply,
    Read.val_main_v26_apply, Read.val_main_call0_v0_apply, Read.val_main_call0_cst_apply, eb]
  simp only [el, er, nodeIn_stage]
  rfl

/-- The reference's first result is the node result. -/
theorem node_eq (x1 : EdgeFeats) (x2 x3 : NodeIds) (x4 : Weights) (x5 : Bias) :
    Read.val_main_v29 (F := Ideal) x1 x2 x3 x4 x5 = nodeOut x1 x2 x3 x4 x5 := by
  funext i
  obtain ⟨p, q, r, rfl⟩ : ∃ p q r, i = ix3 p q r := ⟨i 0, i 1, i 2, eq_ix3 i⟩
  rw [node_stage]
  rfl

/-- For an id that reads signed as non-negative the wrap of negative ids returns the id. -/
private theorem wrap_apply (u : NodeIds) (e : Fin 1600000) (h : 0 ≤ (u (ix1 e)).toInt) :
    Read.val_main_v35 (F := Ideal) u (ixP e) = u (ix1 e) := by
  have ei : Read.idx_main_v35 (ixP e) = ix1 e := funext fun a => by
    match a with
    | ⟨0, _⟩ => rfl
  have hc : IntOp.cmpi .slt (u (ix1 e)) 0#32 = 0#1 := by
    unfold IntOp.cmpi
    have hs : (u (ix1 e)).slt 0#32 = false := by
      rw [BitVec.slt_eq_decide, BitVec.toInt_zero, decide_eq_false_iff_not]
      omega
    show BitVec.ofBool ((u (ix1 e)).slt 0#32) = 0#1
    rw [hs]
    rfl
  rw [Read.val_main_v35_apply, ei, Read.val_main_v34_apply, Read.val_main_v31_apply, Read.val_main_v30_apply,
    Read.val_main_c_apply, hc, select_zero]

/-- For source ids in range the clamped row of the wrapped id is the specification's source row. -/
private theorem clampRow_eq (u : NodeIds) (hu : InRange u) (e : Fin 1600000) :
    clampRow 100000 (by decide) (Read.val_main_v35 (F := Ideal) u) e = sourceRow u e := by
  apply Fin.ext
  show min (Read.val_main_v35 (F := Ideal) u (ixP e)).toInt.toNat (100000 - 1) = min (u (ix1 e)).toInt.toNat 99999
  rw [wrap_apply u e (hu e).1]

/-- The gather reads the node result's row of the edge's source. -/
private theorem gather_stage (ef : EdgeFeats) (u v : NodeIds) (Wn : Weights) (bn : Bias) (hu : InRange u)
    (e : Fin 1600000) (j : Fin 64) :
    Read.val_main_v36 (F := Ideal) ef u v Wn bn (ix3 e 0 j) = node ef u v Wn bn (sourceRow u e) j := by
  unfold Read.val_main_v36
  have h := gather_rows3 (N := 100000) (D := 64) (n := 1600000) (w := 32)
    gather_S100000x1x64_S1600000x1_S1600000x1x64_12_0_n_n_0_1_1164 rfl rfl rfl rfl rfl rfl
    (Read.val_main_v29 (F := Ideal) ef u v Wn bn) (Read.val_main_v35 (F := Ideal) u) e j (by decide)
  rw [h, clampRow_eq u hu, node_stage]

/-- The join along the columns: the source's result row below column 64, the edge's own row from there on. -/
private theorem edgeIn_stage (ef : EdgeFeats) (u v : NodeIds) (Wn : Weights) (bn : Bias) (hu : InRange u)
    (e : Fin 1600000) (k : Fin 128) :
    Read.val_main_v37 (F := Ideal) ef u v Wn bn (ix3 e 0 k) = edgeIn ef u v Wn bn e k := by
  unfold Read.val_main_v37 edgeIn
  by_cases h : k.val < 64
  · rw [dif_pos h, ← gather_stage ef u v Wn bn hu]
    exact concatenate_pair_apply_left (t := S1600000x1x128) (s₁ := S1600000x1x64) (s₂ := S1600000x1x64) 2 _ _ _
      (ix3 e 0 k) rfl (ix3 e 0 ⟨k.val, h⟩)
      (fun b => by match b with | ⟨0, _⟩ => rfl | ⟨1, _⟩ => rfl | ⟨2, _⟩ => rfl)
  · rw [dif_neg h]
    exact concatenate_pair_apply_right (t := S1600000x1x128) (s₁ := S1600000x1x64) (s₂ := S1600000x1x64) 2 _ _ _
      (ix3 e 0 k) rfl rfl (ix3 e 0 ⟨k.val - 64, by omega⟩)
      (fun b hb => by match b with | ⟨0, _⟩ => rfl | ⟨1, _⟩ => rfl | ⟨2, _⟩ => exact absurd rfl hb)
      (by show (k.val - 64) + 64 = k.val; omega)

/-- The second linear layer: the edge result at an edge and a column. -/
private theorem edge_stage (ef : EdgeFeats) (u v : NodeIds) (Wn : Weights) (bn : Bias) (We : Weights) (be : Bias)
    (hu : InRange u) (e : Fin 1600000) (q : Fin 1) (o : Fin 64) :
    Read.val_main_v41 (F := Ideal) ef u v Wn bn We be (ix3 e q o) = edge ef u v Wn bn We be e o := by
  have hq : q = 0 := Subsingleton.elim _ _
  subst hq
  have el : ∀ k : Fin 128, Read.lidx_main_v38 (ix3 e (0 : Fin 1) o) k = ix3 e 0 k := fun k => funext fun a => by
    match a with
    | ⟨0, _⟩ => rfl
    | ⟨1, _⟩ => rfl
    | ⟨2, _⟩ => rfl
  have er : ∀ k : Fin 128, Read.ridx_main_v38 (ix3 e (0 : Fin 1) o) k = ix2 o k := fun k => funext fun a => by
    match a with
    | ⟨0, _⟩ => rfl
    | ⟨1, _⟩ => rfl
  have eb : Read.idx_main_v39 (Read.idx_main_v40 (ix3 e (0 : Fin 1) o)) = ix1 o := funext fun a => by
    match a with
    | ⟨0, _⟩ => rfl
  rw [Read.val_main_v41_apply, Read.val_main_v38_apply, Read.val_main_v40_apply, Read.val_main_v39_apply, eb]
  simp only [el, er, edgeIn_stage ef u v Wn bn hu]
  rfl

/-- The reference's second result is the edge result, for source ids in range. -/
theorem edge_eq (x1 : EdgeFeats) (x2 x3 : NodeIds) (x4 : Weights) (x5 : Bias) (x6 : Weights) (x7 : Bias)
    (hu : InRange x2) :
    Read.val_main_v41 (F := Ideal) x1 x2 x3 x4 x5 x6 x7 = edgeOut x1 x2 x3 x4 x5 x6 x7 := by
  funext i
  obtain ⟨p, q, r, rfl⟩ : ∃ p q r, i = ix3 p q r := ⟨i 0, i 1, i 2, eq_ix3 i⟩
  rw [edge_stage x1 x2 x3 x4 x5 x6 x7 hu]
  rfl

end Cert.ReferenceIdeal.RefValue

end
-- ==== Proof.PreRange.lean ====
/-
  THE PRECONDITION'S LAST CONJUNCT, DECODED. The precondition is a conjunction of "all" reductions; its last says
  that every source id u(e), as a signed word, is at least 0 and less than 100000.
-/
import proofs.«406166_j7241314861140_1_alg».proof.Pre_finite_inputs
import proofs.«406166_j7241314861140_1_alg».proof.Proof.Gen.Pre_finite_inputs
import proofs.«406166_j7241314861140_1_alg».proof.Proof.Spec
import Idealize.ShloMosaic.Lib.ReduceAll
import Idealize.ShloMosaic.Lib.StableHlo.Predicate

noncomputable section

namespace Cert.Pre_finite_inputs.Range

open Idealize.ShloMosaic Idealize.ShloMosaic.ValueIdx Cert.Pre_finite_inputs

/-- The scalar shape has one index. -/
private instance subsingleton_scalar_idx : Subsingleton S_.Idx := ⟨fun a b => funext fun d => d.elim0⟩

/-- One element of the last conjunct's mask, read: the two signed compares against the broadcast constants 0 and
    100000 say the word read signed lies in [0, 100000). -/
private theorem mask_elem (u : IVec S1600000 32) (hb : S_.BroadcastsInDim S1600000 (![] : Fin 0 → Fin S1600000.rank))
    (e : Fin 1600000)
    (hm : andi (cmpi .sge u (broadcastInDim S1600000 ![] hb (constantI S_ 32 0#32)))
      (cmpi .slt u (broadcastInDim S1600000 ![] hb (constantI S_ 32 100000#32))) (ix1 e) = 1#1) :
    0 ≤ (u (ix1 e)).toInt ∧ (u (ix1 e)).toInt < 100000 := by
  obtain ⟨hge, hlt⟩ := IntOp.andi_eq_one.1 hm
  have hge' := IntOp.cmpi_sge.1 hge
  have hlt' := IntOp.cmpi_slt.1 hlt
  rw [StableHlo.Predicate.bcast_scalar hb (by decide)] at hge' hlt'
  have e0 : (0#32 : BitVec 32).toInt = 0 := by decide
  have e1 : (100000#32 : BitVec 32).toInt = 100000 := by decide
  change (0#32 : BitVec 32).toInt ≤ _ at hge'
  change _ < (100000#32 : BitVec 32).toInt at hlt'
  rw [e0] at hge'
  rw [e1] at hlt'
  exact ⟨hge', hlt'⟩

/-- Where the precondition holds, every source id names a node. -/
theorem inRange_of_pre (a0 : FVec Ideal S100000x1x64 .f32) (a1 : FVec Ideal S1600000x1x64 .f32)
    (a2 a3 : IVec S1600000 32) (a4 : FVec Ideal S64x128 .f32) (a5 : FVec Ideal S64 .f32)
    (a6 : FVec Ideal S64x128 .f32) (a7 : FVec Ideal S64 .f32)
    (h : fn (F := Ideal) a0 a1 a2 a3 a4 a5 a6 a7 = fun _ => 1#1) :
    Cert.MeanAggregate.InRange a2 := by
  intro e
  have h0 := congrFun h ix0
  dsimp only [fn, fn_part1, fn_part2] at h0
  have h1 := (IntOp.andi_eq_one.1 h0).2
  exact mask_elem a2 _ e (Host.reduce_andi_all _ _ _ _ _ h1 (ix1 e))

end Cert.Pre_finite_inputs.Range

end
-- ==== Proof.lean ====
/-
  THE CERTIFICATE: the kernel program and the reference compute the same node result and the same edge result on
  the extended reals, for finite float inputs and source ids u(e) in [0, 100000).

  Both programs aggregate each node's incident edge rows by v and by u (sum over max(count, 1)), put the two
  aggregates through a linear layer clamped at zero from below — the node result —, then put each edge's source
  row of the node result beside its own row through a second linear layer — the edge result. The kernel program
  works on [rows × 64] arrays and runs the two linear layers as row-tiled regions (bf16 casts, the identity on the
  extended reals; a contraction into a zero accumulator); the reference keeps a unit middle axis and uses host
  contractions. Index by index both are the specification (Proof/Spec.lean): the kernel side is its run with the
  result buffers kept (Proof/KernelRun.lean), read back through the host stretches and the two regions
  (Proof/KernelValue.lean over Proof/RegionValue.lean and Proof/KernelHost.lean); the reference side is its
  generated run read one operation at a time (Proof/RefValue.lean). No law of the extended reals beyond
  rearranging the same sums index by index is used, so finiteness is never opened; the range of u is what makes
  the kernel's take (NaN outside the range) and the reference's clamped gather read the same row.
  The idealization rewrote nothing, so the preservation claim is trivial.
-/
import proofs.«406166_j7241314861140_1_alg».proof.Defs
import proofs.«406166_j7241314861140_1_alg».proof.Proof.Gen.Kernel
import proofs.«406166_j7241314861140_1_alg».proof.Proof.Gen.Kernel.Frame
import proofs.«406166_j7241314861140_1_alg».proof.Proof.Gen.KernelIdeal
import proofs.«406166_j7241314861140_1_alg».proof.Proof.Gen.KernelIdeal.Frame
import proofs.«406166_j7241314861140_1_alg».proof.Proof.Gen.ReferenceIdeal
import proofs.«406166_j7241314861140_1_alg».proof.Proof.Gen.ReferenceIdeal.Run
import proofs.«406166_j7241314861140_1_alg».proof.Proof.Gen.ReferenceIdeal.Read
import proofs.«406166_j7241314861140_1_alg».proof.Proof.Gen.Pre_finite_inputs
import proofs.«406166_j7241314861140_1_alg».proof.Proof.KernelRun
import proofs.«406166_j7241314861140_1_alg».proof.Proof.KernelValue
import proofs.«406166_j7241314861140_1_alg».proof.Proof.RefValue
import proofs.«406166_j7241314861140_1_alg».proof.Proof.PreRange

noncomputable section

namespace Cert.Proof

open Idealize.ShloMosaic Idealize.SL.Sem
open Cert.MeanAggregate (nodeOut edgeOut InRange)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's node result and edge result of the (agreeing) arguments. -/
theorem algebraic : Cert.algebraic_KernelIdeal_ReferenceIdeal := by
  intro m ρ m' ρ' hpre hagree
  have hu : ∀ c : Dev Cert.KernelIdeal.nD,
      InRange (m ((c.tc : Thread Cert.KernelIdeal.nD Cert.KernelIdeal.τ).loc Cert.KernelIdeal.main_arg2)) :=
    fun c => Cert.Pre_finite_inputs.Range.inRange_of_pre _ _ _ _ _ _ _ _ (hpre c)
  refine ⟨fun c => nodeOut
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => edgeOut
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel program: its run with the results kept, each result read back to the launch arguments
    refine (θ_run Cert.KernelIdeal.defs _ _).mono (fun r h c => ?_) (Cert.KernelIdeal.Gen.run_results (F := Ideal) m ρ)
    obtain ⟨h28, h34, hargs⟩ := h c
    exact ⟨h28.trans (Cert.KernelIdeal.KernelValue.node_result m ρ c),
      h34.trans (Cert.KernelIdeal.KernelValue.edge_result m ρ c (hu c)), hargs⟩
  · -- the reference: its generated run, each result's term the specification's of its own arguments, which agree
    refine (θ_run Cert.ReferenceIdeal.defs _ _).mono (fun r h c => ?_)
      (Cert.ReferenceIdeal.Value.run (F := Ideal) m' ρ')
    obtain ⟨h29, h41, hargs⟩ := h c
    obtain ⟨_, a1, a2, a3, a4, a5, a6, a7⟩ := hagree c
    refine ⟨?_, ?_, hargs⟩
    · rw [h29, Cert.ReferenceIdeal.Read.val_main_v29_eq, Cert.ReferenceIdeal.RefValue.node_eq, a1, a2, a3, a4, a5]
    · rw [h41, Cert.ReferenceIdeal.Read.val_main_v41_eq,
        Cert.ReferenceIdeal.RefValue.edge_eq _ _ _ _ _ _ _ (by rw [a2]; exact hu c), a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
